-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1536 : Shape := ⟨2, ![64, 1536]⟩
abbrev S50000x1536 : Shape := ⟨2, ![50000, 1536]⟩
abbrev S2x200000 : Shape := ⟨2, ![2, 200000]⟩
abbrev S50000 : Shape := ⟨1, ![50000]⟩
abbrev S1536x1024 : Shape := ⟨2, ![1536, 1024]⟩
abbrev S1024 : Shape := ⟨1, ![1024]⟩
abbrev S1024x1024 : Shape := ⟨2, ![1024, 1024]⟩
abbrev S2560x1024 : Shape := ⟨2, ![2560, 1024]⟩
abbrev S1024x80 : Shape := ⟨2, ![1024, 80]⟩
abbrev S80 : Shape := ⟨1, ![80]⟩
abbrev S_ : Shape := ⟨0, ![]⟩

class Facts : Prop where
  bcast_S_S64x1536 : S_.BroadcastsInDim S64x1536 (![] : Fin 0 → Fin S64x1536.rank)
  reducesTo_S64x1536_S_d0_1 : S64x1536.ReducesTo [0, 1] S_
  h_S_ : 0 < S_.numel
  bcast_S_S50000x1536 : S_.BroadcastsInDim S50000x1536 (![] : Fin 0 → Fin S50000x1536.rank)
  reducesTo_S50000x1536_S_d0_1 : S50000x1536.ReducesTo [0, 1] S_
  bcast_S_S1536x1024 : S_.BroadcastsInDim S1536x1024 (![] : Fin 0 → Fin S1536x1024.rank)
  reducesTo_S1536x1024_S_d0_1 : S1536x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2560x1024 : S_.BroadcastsInDim S2560x1024 (![] : Fin 0 → Fin S2560x1024.rank)
  reducesTo_S2560x1024_S_d0_1 : S2560x1024.ReducesTo [0, 1] S_
  bcast_S_S1024x80 : S_.BroadcastsInDim S1024x80 (![] : Fin 0 → Fin S1024x80.rank)
  reducesTo_S1024x80_S_d0_1 : S1024x80.ReducesTo [0, 1] S_
  bcast_S_S80 : S_.BroadcastsInDim S80 (![] : Fin 0 → Fin S80.rank)
  reducesTo_S80_S_d0 : S80.ReducesTo [0] S_

variable [Facts]

def fn_part2 {F : FTy → Type} [FloatOps F] (main_arg9 : FVec F S1024 .f32) (main_arg10 : FVec F S1024x80 .f32) (main_arg11 : FVec F S80 .f32) (main_v33 : IVec S_ 1) : IVec S_ 1 :=
  let main_v34 : FVec F S1024 .f32 := Host.absf main_arg9
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x80 .f32 := Host.absf main_arg10
  let main_cst_14 : FVec F S_ .f32 := constant S_ .f32 0x7F800000#32
  let main_v40 : FVec F S1024x80 .f32 := broadcastInDim S1024x80 ![] bcast_S_S1024x80 main_cst_14
  let main_v41 : IVec S1024x80 1 := cmpf .olt main_v39 main_v40
  let main_c_15 : IVec S_ 1 := constantI S_ 1 1#1
  let main_v42 : IVec S_ 1 := (fun x v => Host.reduce IntOp.andi x v reducesTo_S1024x80_S_d0_1 h_S_) main_v41 main_c_15
  let main_v43 : IVec S_ 1 := andi main_v38 main_v42
  let main_v44 : FVec F S80 .f32 := Host.absf main_arg11
  let main_cst_16 : FVec F S_ .f32 := constant S_ .f32 0x7F800000#32
  let main_v45 : FVec F S80 .f32 := broadcastInDim S80 ![] bcast_S_S80 main_cst_16
  let main_v46 : IVec S80 1 := cmpf .olt main_v44 main_v45
  let main_c_17 : IVec S_ 1 := constantI S_ 1 1#1
  let main_v47 : IVec S_ 1 := (fun x v => Host.reduce IntOp.andi x v reducesTo_S80_S_d0 h_S_) main_v46 main_c_17
  let main_v48 : IVec S_ 1 := andi main_v43 main_v47
  main_v48

def fn_part1 {F : FTy → Type} [FloatOps F] (main_arg6 : FVec F S1024x1024 .f32) (main_arg7 : FVec F S1024 .f32) (main_arg8 : FVec F S2560x1024 .f32) (main_arg9 : FVec F S1024 .f32) (main_arg10 : FVec F S1024x80 .f32) (main_arg11 : FVec F S80 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg6
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S2560x1024 .f32 := Host.absf main_arg8
  let main_cst_10 : FVec F S_ .f32 := constant S_ .f32 0x7F800000#32
  let main_v30 : FVec F S2560x1024 .f32 := broadcastInDim S2560x1024 ![] bcast_S_S2560x1024 main_cst_10
  let main_v31 : IVec S2560x1024 1 := cmpf .olt main_v29 main_v30
  let main_c_11 : IVec S_ 1 := constantI S_ 1 1#1
  let main_v32 : IVec S_ 1 := (fun x v => Host.reduce IntOp.andi x v reducesTo_S2560x1024_S_d0_1 h_S_) main_v31 main_c_11
  let main_v33 : IVec S_ 1 := andi main_v28 main_v32
  fn_part2 (F := F) main_arg9 main_arg10 main_arg11 main_v33

def fn {F : FTy → Type} [FloatOps F] (main_arg0 : FVec F S64x1536 .f32) (main_arg1 : FVec F S50000x1536 .f32) (main_arg2 : IVec S2x200000 32) (main_arg3 : IVec S50000 32) (main_arg4 : FVec F S1536x1024 .f32) (main_arg5 : FVec F S1024 .f32) (main_arg6 : FVec F S1024x1024 .f32) (main_arg7 : FVec F S1024 .f32) (main_arg8 : FVec F S2560x1024 .f32) (main_arg9 : FVec F S1024 .f32) (main_arg10 : FVec F S1024x80 .f32) (main_arg11 : FVec F S80 .f32) : IVec S_ 1 :=
  let main_v0 : FVec F S64x1536 .f32 := Host.absf main_arg0
  let main_cst : FVec F S_ .f32 := constant S_ .f32 0x7F800000#32
  let main_v1 : FVec F S64x1536 .f32 := broadcastInDim S64x1536 ![] bcast_S_S64x1536 main_cst
  let main_v2 : IVec S64x1536 1 := cmpf .olt main_v0 main_v1
  let main_c : IVec S_ 1 := constantI S_ 1 1#1
  let main_v3 : IVec S_ 1 := (fun x v => Host.reduce IntOp.andi x v reducesTo_S64x1536_S_d0_1 h_S_) main_v2 main_c
  let main_v4 : FVec F S50000x1536 .f32 := Host.absf main_arg1
  let main_cst_0 : FVec F S_ .f32 := constant S_ .f32 0x7F800000#32
  let main_v5 : FVec F S50000x1536 .f32 := broadcastInDim S50000x1536 ![] bcast_S_S50000x1536 main_cst_0
  let main_v6 : IVec S50000x1536 1 := cmpf .olt main_v4 main_v5
  let main_c_1 : IVec S_ 1 := constantI S_ 1 1#1
  let main_v7 : IVec S_ 1 := (fun x v => Host.reduce IntOp.andi x v reducesTo_S50000x1536_S_d0_1 h_S_) main_v6 main_c_1
  let main_v8 : IVec S_ 1 := andi main_v3 main_v7
  let main_v9 : FVec F S1536x1024 .f32 := Host.absf main_arg4
  let main_cst_2 : FVec F S_ .f32 := constant S_ .f32 0x7F800000#32
  let main_v10 : FVec F S1536x1024 .f32 := broadcastInDim S1536x1024 ![] bcast_S_S1536x1024 main_cst_2
  let main_v11 : IVec S1536x1024 1 := cmpf .olt main_v9 main_v10
  let main_c_3 : IVec S_ 1 := constantI S_ 1 1#1
  let main_v12 : IVec S_ 1 := (fun x v => Host.reduce IntOp.andi x v reducesTo_S1536x1024_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg7 main_arg8 main_arg9 main_arg10 main_arg11 main_v13 main_v16
-- ==== Kernel.lean ====
abbrev S64x1536 : Shape := ⟨2, ![64, 1536]⟩
abbrev S50000x1536 : Shape := ⟨2, ![50000, 1536]⟩
abbrev S2x200000 : Shape := ⟨2, ![2, 200000]⟩
abbrev S50000 : Shape := ⟨1, ![50000]⟩
abbrev S1536x1024 : Shape := ⟨2, ![1536, 1024]⟩
abbrev S1024 : Shape := ⟨1, ![1024]⟩
abbrev S1024x1024 : Shape := ⟨2, ![1024, 1024]⟩
abbrev S2560x1024 : Shape := ⟨2, ![2560, 1024]⟩
abbrev S1024x80 : Shape := ⟨2, ![1024, 80]⟩
abbrev S80 : Shape := ⟨1, ![80]⟩
abbrev S1x200000 : Shape := ⟨2, ![1, 200000]⟩
abbrev S200000 : Shape := ⟨1, ![200000]⟩
abbrev S250000 : Shape := ⟨1, ![250000]⟩
abbrev S_ : Shape := ⟨0, ![]⟩
abbrev S250000x1 : Shape := ⟨2, ![250000, 1]⟩
abbrev S50000x1024 : Shape := ⟨2, ![50000, 1024]⟩
abbrev S400x1536 : Shape := ⟨2, ![400, 1536]⟩
abbrev S400x1024 : Shape := ⟨2, ![400, 1024]⟩
abbrev S250000x1024 : Shape := ⟨2, ![250000, 1024]⟩
abbrev S1x1024 : Shape := ⟨2, ![1, 1024]⟩
abbrev S64 : Shape := ⟨1, ![64]⟩
abbrev S50000x1 : Shape := ⟨2, ![50000, 1]⟩
abbrev S64x1024 : Shape := ⟨2, ![64, 1024]⟩
abbrev S64x1 : Shape := ⟨2, ![64, 1]⟩
abbrev S64x2560 : Shape := ⟨2, ![64, 2560]⟩
abbrev S1x80 : Shape := ⟨2, ![1, 80]⟩
abbrev S64x80 : Shape := ⟨2, ![64, 80]⟩

abbrev nBuf : Space → Nat
  | .hbm => 121
  | .vmem => 16
  | .smem => 0
  | _ => 0

abbrev bufTy : (tb : Table) → Fin (tcTables nBuf tb) → BufTy
  | .hbm, ⟨0, _⟩ => ⟨S64x1536, .f32⟩
  | .hbm, ⟨1, _⟩ => ⟨S50000x1536, .f32⟩
  | .hbm, ⟨2, _⟩ => ⟨S2x200000, .i32⟩
  | .hbm, ⟨3, _⟩ => ⟨S50000, .i32⟩
  | .hbm, ⟨4, _⟩ => ⟨S1536x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S2560x1024, .f32⟩
  | .hbm, ⟨9, _⟩ => ⟨S1024, .f32⟩
  | .hbm, ⟨10, _⟩ => ⟨S1024x80, .f32⟩
  | .hbm, ⟨11, _⟩ => ⟨S80, .f32⟩
  | .hbm, ⟨12, _⟩ => ⟨S50000, .i32⟩
  | .hbm, ⟨13, _⟩ => ⟨S1x200000, .i32⟩
  | .hbm, ⟨14, _⟩ => ⟨S200000, .i32⟩
  | .hbm, ⟨15, _⟩ => ⟨S250000, .i32⟩
  | .hbm, ⟨16, _⟩ => ⟨S1x200000, .i32⟩
  | .hbm, ⟨17, _⟩ => ⟨S200000, .i32⟩
  | .hbm, ⟨18, _⟩ => ⟨S250000, .i32⟩
  | .hbm, ⟨19, _⟩ => ⟨S_, .f32⟩
  | .hbm, ⟨20, _⟩ => ⟨S250000, .f32⟩
  | .hbm, ⟨21, _⟩ => ⟨S_, .f32⟩
  | .hbm, ⟨22, _⟩ => ⟨S50000, .f32⟩
  | .hbm, ⟨23, _⟩ => ⟨S250000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S250000, .i32⟩
  | .hbm, ⟨38, _⟩ => ⟨S250000, .i1⟩
  | .hbm, ⟨39, _⟩ => ⟨S_, .i32⟩
  | .hbm, ⟨40, _⟩ => ⟨S250000, .i32⟩
  | .hbm, ⟨41, _⟩ => ⟨S250000, .i32⟩
  | .hbm, ⟨42, _⟩ => ⟨S250000, .i32⟩
  | .hbm, ⟨43, _⟩ => ⟨S250000x1, .i32⟩
  | .hbm, ⟨44, _⟩ => ⟨S250000, .f32⟩
  | .hbm, ⟨45, _⟩ => ⟨S_, .i32⟩
  | .hbm, ⟨46, _⟩ => ⟨S250000, .i32⟩
  | .hbm, ⟨47, _⟩ => ⟨S250000, .i1⟩
  | .hbm, ⟨48, _⟩ => ⟨S_, .i32⟩
  | .hbm, ⟨49, _⟩ => ⟨S250000, .i32⟩
  | .hbm, ⟨50, _⟩ => ⟨S250000, .i32⟩
  | .hbm, ⟨51, _⟩ => ⟨S250000, .i32⟩
  | .hbm, ⟨52, _⟩ => ⟨S250000x1, .i32⟩
  | .hbm, ⟨53, _⟩ => ⟨S250000, .f32⟩
  | .hbm, ⟨54, _⟩ => ⟨S250000, .f32⟩
  | .hbm, ⟨55, _⟩ => ⟨S50000x1024, .f32⟩
  | .hbm, ⟨56, _⟩ => ⟨S_, .i32⟩
  | .hbm, ⟨57, _⟩ => ⟨S250000, .i32⟩
  | .hbm, ⟨58, _⟩ => ⟨S250000, .i1⟩
  | .hbm, ⟨59, _⟩ => ⟨S_, .i32⟩
  | .hbm, ⟨60, _⟩ => ⟨S250000, .i32⟩
  | .hbm, ⟨61, _⟩ => ⟨S250000, .i32⟩
  | .hbm, ⟨62, _⟩ => ⟨S250000, .i32⟩
  | .hbm, ⟨63, _⟩ => ⟨S250000x1, .i32⟩
  | .hbm, ⟨64, _⟩ => ⟨S250000x1024, .f32⟩
  | .hbm, ⟨65, _⟩ => ⟨S250000x1, .f32⟩
  | .hbm, ⟨66, _⟩ => ⟨S250000x1024, .f32⟩
  | .hbm, ⟨67, _⟩ => ⟨S250000x1024, .f32⟩
  | .hbm, ⟨68, _⟩ => ⟨S_, .f32⟩
  | .hbm, ⟨69, _⟩ => ⟨S50000x1024, .f32⟩
  | .hbm, ⟨70, _⟩ => ⟨S250000x1, .i32⟩
  | .hbm, ⟨71, _⟩ => ⟨S50000x1024, .f32⟩
  | .hbm, ⟨72, _⟩ => ⟨S1x1024, .f32⟩
  | .hbm, ⟨73, _⟩ => ⟨S50000x1024, .f32⟩
  | .hbm, ⟨74, _⟩ => ⟨S50000x1024, .f32⟩
  | .hbm, ⟨75, _⟩ => ⟨S_, .f32⟩
  | .hbm, ⟨76, _⟩ => ⟨S50000x1024, .f32⟩
  | .hbm, ⟨77, _⟩ => ⟨S50000x1024, .f32⟩
  | .hbm, ⟨78, _⟩ => ⟨S50000x1024, .f32⟩
  | .hbm, ⟨79, _⟩ => ⟨S_, .i32⟩
  | .hbm, ⟨80, _⟩ => ⟨S250000, .i32⟩
  | .hbm, ⟨81, _⟩ => ⟨S250000, .i1⟩
  | .hbm, ⟨82, _⟩ => ⟨S_, .i32⟩
  | .hbm, ⟨83, _⟩ => ⟨S250000, .i32⟩
  | .hbm, ⟨84, _⟩ => ⟨S250000, .i32⟩
  | .hbm, ⟨85, _⟩ => ⟨S250000, .i32⟩
  | .hbm, ⟨86, _⟩ => ⟨S250000x1, .i32⟩
  | .hbm, ⟨87, _⟩ => ⟨S250000x1024, .f32⟩
  | .hbm, ⟨88, _⟩ => ⟨S250000x1, .f32⟩
  | .hbm, ⟨89, _⟩ => ⟨S250000x1024, .f32⟩
  | .hbm, ⟨90, _⟩ => ⟨S250000x1024, .f32⟩
  | .hbm, ⟨91, _⟩ => ⟨S_, .f32⟩
  | .hbm, ⟨92, _⟩ => ⟨S50000x1024, .f32⟩
  | .hbm, ⟨93, _⟩ => ⟨S250000x1, .i32⟩
  | .hbm, ⟨94, _⟩ => ⟨S50000x1024, .f32⟩
  | .hbm, ⟨95, _⟩ => ⟨S1x1024, .f32⟩
  | .hbm, ⟨96, _⟩ => ⟨S50000x1024, .f32⟩
  | .hbm, ⟨97, _⟩ => ⟨S50000x1024, .f32⟩
  | .hbm, ⟨98, _⟩ => ⟨S_, .f32⟩
  | .hbm, ⟨99, _⟩ => ⟨S50000x1024, .f32⟩
  | .hbm, ⟨100, _⟩ => ⟨S50000x1024, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S64, .f32⟩
  | .hbm, ⟨105, _⟩ => ⟨S50000x1, .i32⟩
  | .hbm, ⟨106, _⟩ => ⟨S64, .f32⟩
  | .hbm, ⟨107, _⟩ => ⟨S_, .f32⟩
  | .hbm, ⟨108, _⟩ => ⟨S64x1024, .f32⟩
  | .hbm, ⟨109, _⟩ => ⟨S50000x1, .i32⟩
  | .hbm, ⟨110, _⟩ => ⟨S64x1024, .f32⟩
  | .hbm, ⟨111, _⟩ => ⟨S_, .f32⟩
  | .hbm, ⟨112, _⟩ => ⟨S64, .f32⟩
  | .hbm, ⟨113, _⟩ => ⟨S64, .f32⟩
  | .hbm, ⟨114, _⟩ => ⟨S64x1, .f32⟩
  | .hbm, ⟨115, _⟩ => ⟨S64x1024, .f32⟩
  | .hbm, ⟨116, _⟩ => ⟨S64x1024, .f32⟩
  | .hbm, ⟨117, _⟩ => ⟨S64x2560, .f32⟩
  | .hbm, ⟨118, _⟩ => ⟨S1x1024, .f32⟩
  | .hbm, ⟨119, _⟩ => ⟨S1x80, .f32⟩
  | .hbm, ⟨120, _⟩ => ⟨S64x80, .f32⟩
  | .local _ .vmem, ⟨0, _⟩ => ⟨S400x1536, .f32⟩
  | .local _ .vmem, ⟨1, _⟩ => ⟨S400x1536, .f32⟩
  | .local _ .vmem, ⟨2, _⟩ => ⟨S1536x1024, .f32⟩
  | .local _ .vmem, ⟨3, _⟩ => ⟨S400x1024, .f32⟩
  | .local _ .vmem, ⟨4, _⟩ => ⟨S400x1024, .f32⟩
  | .local _ .vmem, ⟨5, _⟩ => ⟨S400x1024, .f32⟩
  | .local _ .vmem, ⟨6, _⟩ => ⟨S400x1024, .f32⟩
  | .local _ .vmem, ⟨7, _⟩ => ⟨S1024x1024, .f32⟩
  | .local _ .vmem, ⟨8, _⟩ => ⟨S400x1024, .f32⟩
  | .local _ .vmem, ⟨9, _⟩ => ⟨S400x1024, .f32⟩
  | .local _ .vmem, ⟨10, _⟩ => ⟨S64x2560, .f32⟩
  | .local _ .vmem, ⟨11, _⟩ => ⟨S2560x1024, .f32⟩
  | .local _ .vmem, ⟨12, _⟩ => ⟨S1x1024, .f32⟩
  | .local _ .vmem, ⟨13, _⟩ => ⟨S1024x80, .f32⟩
  | .local _ .vmem, ⟨14, _⟩ => ⟨S1x80, .f32⟩
  | .local _ .vmem, ⟨15, _⟩ => ⟨S64x80, .f32⟩
  | _, _ => ⟨S64x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_cst : Ref sig .tc := ⟨.hbm, 98, rfl⟩
abbrev main_call2_v0 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x2560 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2560x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x80 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x80 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x80 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x200000_S1x200000_0_0 : S2x200000.Slices ![0, 0] S1x200000
  shapeCasts_S1x200000_S200000 : S1x200000.ShapeCasts S200000
  concatenates_S200000_S50000_S250000_d0 : Shape.Concatenates [S200000, S50000] S250000 0
  slices_S2x200000_S1x200000_1_0 : S2x200000.Slices ![1, 0] S1x200000
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  inb_S400x1536_S400x1536_0_0 : ∀ a, (![0, 0] : Fin 2 → Nat) a + S400x1536.size a ≤ S400x1536.size a
  h_S400x1536 : 0 < S400x1536.numel
  bitsLt_bf16_f32 : FTy.bits .bf16 < FTy.bits .f32
  inb_S1536x1024_S1536x1024_0_0 : ∀ a, (![0, 0] : Fin 2 → Nat) a + S1536x1024.size a ≤ S1536x1024.size a
  h_S1536x1024 : 0 < S1536x1024.numel
  inb_S400x1024_S400x1024_0_0 : ∀ a, (![0, 0] : Fin 2 → Nat) a + S400x1024.size a ≤ S400x1024.size a
  h_S400x1024 : 0 < S400x1024.numel
  bcast_S250000x1_S250000x1024_0_1 : S250000x1.BroadcastsInDim S250000x1024 (![0, 1] : Fin 2 → Fin S250000x1024.rank)
  bcast_S_S50000x1024 : S_.BroadcastsInDim S50000x1024 (![] : Fin 0 → Fin S50000x1024.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  shapeCasts_S400x1024_S400x1024 : S400x1024.ShapeCasts S400x1024
  inb_S1024x1024_S1024x1024_0_0 : ∀ a, (![0, 0] : Fin 2 → Nat) a + S1024x1024.size a ≤ S1024x1024.size a
  h_S1024x1024 : 0 < S1024x1024.numel
  bcast_S_S64 : S_.BroadcastsInDim S64 (![] : Fin 0 → Fin S64.rank)
  bcast_S50000_S50000x1_0 : S50000.BroadcastsInDim S50000x1 (![0] : Fin 1 → Fin S50000x1.rank)
  bcast_S_S64x1024 : S_.BroadcastsInDim S64x1024 (![] : Fin 0 → Fin S64x1024.rank)
  bcast_S64_S64x1_0 : S64.BroadcastsInDim S64x1 (![0] : Fin 1 → Fin S64x1.rank)
  bcast_S64x1_S64x1024_0_1 : S64x1.BroadcastsInDim S64x1024 (![0, 1] : Fin 2 → Fin S64x1024.rank)
  concatenates_S64x1536_S64x1024_S64x2560_d1 : Shape.Concatenates [S64x1536, S64x1024] S64x2560 1
  shapeCasts_S1024_S1x1024 : S1024.ShapeCasts S1x1024
  shapeCasts_S80_S1x80 : S80.ShapeCasts S1x80
  inb_S64x2560_S64x2560_0_0 : ∀ a, (![0, 0] : Fin 2 → Nat) a + S64x2560.size a ≤ S64x2560.size a
  h_S64x2560 : 0 < S64x2560.numel
  shapeCasts_S64x2560_S64x2560 : S64x2560.ShapeCasts S64x2560
  inb_S2560x1024_S2560x1024_0_0 : ∀ a, (![0, 0] : Fin 2 → Nat) a + S2560x1024.size a ≤ S2560x1024.size a
  h_S2560x1024 : 0 < S2560x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S1024x80_S1024x80_0_0 : ∀ a, (![0, 0] : Fin 2 → Nat) a + S1024x80.size a ≤ S1024x80.size a
  h_S1024x80 : 0 < S1024x80.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S64x80 : S1x80.Broadcasts S64x80
  inb_S64x80_S64x80_0_0 : ∀ a, (![0, 0] : Fin 2 → Nat) a + S64x80.size a ≤ S64x80.size a
  h_S64x80 : 0 < S64x80.numel
  scatter_S50000_S250000x1_S250000_n_0_0_1_wf : ScatterDims.WF S50000 S250000x1 S250000 [] [0] [0] 1
  gather_S50000_S250000x1_S250000_n_0_n_n_0_1_1_wf : GatherDims.WF S50000 S250000x1 S250000 [] [0] [] [0] [] 1 ![1]
  dot_S400x1536_S1536x1024_S400x1024_1_0_0_1_n_n_wf : DotDims.WF S400x1536 S1536x1024 S400x1024 [1] [0] [0] [1] [] []
  gather_S50000x1024_S250000x1_S250000x1024_1_0_n_n_0_1_11024_wf : GatherDims.WF S50000x1024 S250000x1 S250000x1024 [1] [0] [] [0] [] 1 ![1, 1024]
  scatter_S50000x1024_S250000x1_S250000x1024_1_0_0_1_wf : ScatterDims.WF S50000x1024 S250000x1 S250000x1024 [1] [0] [0] 1
  dot_S400x1024_S1024x1024_S400x1024_1_0_0_1_n_n_wf : DotDims.WF S400x1024 S1024x1024 S400x1024 [1] [0] [0] [1] [] []
  scatter_S64_S50000x1_S50000_n_0_0_1_wf : ScatterDims.WF S64 S50000x1 S50000 [] [0] [0] 1
  scatter_S64x1024_S50000x1_S50000x1024_1_0_0_1_wf : ScatterDims.WF S64x1024 S50000x1 S50000x1024 [1] [0] [0] 1
  dot_S64x2560_S2560x1024_S64x1024_1_0_0_1_n_n_wf : DotDims.WF S64x2560 S2560x1024 S64x1024 [1] [0] [0] [1] [] []
  dot_S64x1024_S1024x80_S64x80_1_0_0_1_n_n_wf : DotDims.WF S64x1024 S1024x80 S64x80 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1536.size a ≤ S50000x1536.size a
  hwx0_0 : ∀ i : grid0.Coords, EltTy.bits .f32 = 32 ∨ (Rect.block (s := S50000x1536) S400x1536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x1024.size a ≤ S1536x1024.size a
  hwx0_1 : ∀ i : grid0.Coords, EltTy.bits .f32 = 32 ∨ (Rect.block (s := S1536x1024) S1536x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1024.size a ≤ S50000x1024.size a
  hwx0_2 : ∀ i : grid0.Coords, EltTy.bits .f32 = 32 ∨ (Rect.block (s := S50000x1024) S400x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x1024.size a ≤ S50000x1024.size a
  hwx1_0 : ∀ i : grid1.Coords, EltTy.bits .f32 = 32 ∨ (Rect.block (s := S50000x1024) S400x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1024.size a ≤ S50000x1024.size a
  hwx1_2 : ∀ i : grid1.Coords, EltTy.bits .f32 = 32 ∨ (Rect.block (s := S50000x1024) S400x1024.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x2560.size a ≤ S64x2560.size a
  hwx2_0 : ∀ i : grid2.Coords, EltTy.bits .f32 = 32 ∨ (Rect.block (s := S64x2560) S64x2560.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2560x1024.size a ≤ S2560x1024.size a
  hwx2_1 : ∀ i : grid2.Coords, EltTy.bits .f32 = 32 ∨ (Rect.block (s := S2560x1024) S2560x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x80.size a ≤ S1024x80.size a
  hwx2_3 : ∀ i : grid2.Coords, EltTy.bits .f32 = 32 ∨ (Rect.block (s := S1024x80) S1024x80.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x80.size a ≤ S1x80.size a
  hwx2_4 : ∀ i : grid2.Coords, EltTy.bits .f32 = 32 ∨ (Rect.block (s := S1x80) S1x80.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x80.size a ≤ S64x80.size a
  hwx2_5 : ∀ i : grid2.Coords, EltTy.bits .f32 = 32 ∨ (Rect.block (s := S64x80) S64x80.size (cc2_transform_5 i) (hinb2_5 i)).WholeWords (EltTy.packing .f32)

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000_S250000x1_S250000_n_0_n_n_0_1_1 : GatherDims S50000 S250000x1 S250000 where
  offsetDims := []
  collapsedSliceDims := [0]
  operandBatchingDims := []
  startIndicesBatchingDims := []
  startIndexMap := [0]
  indexVectorDim := 1
  sliceSizes := ![1]
  wf := gather_S50000_S250000x1_S250000_n_0_n_n_0_1_1_wf
def dot_S400x1536_S1536x1024_S400x1024_1_0_0_1_n_n : DotDims S400x1536 S1536x1024 S400x1024 where
  lhsContracting := [1]
  rhsContracting := [0]
  lhsNonContracting := [0]
  rhsNonContracting := [1]
  lhsBatch := []
  rhsBatch := []
  wf := dot_S400x1536_S1536x1024_S400x1024_1_0_0_1_n_n_wf
def gather_S50000x1024_S250000x1_S250000x1024_1_0_n_n_0_1_11024 : GatherDims S50000x1024 S250000x1 S250000x1024 where
  offsetDims := [1]
  collapsedSliceDims := [0]
  operandBatchingDims := []
  startIndicesBatchingDims := []
  startIndexMap := [0]
  indexVectorDim := 1
  sliceSizes := ![1, 1024]
  wf := gather_S50000x1024_S250000x1_S250000x1024_1_0_n_n_0_1_11024_wf
def scatter_S50000x1024_S250000x1_S250000x1024_1_0_0_1 : ScatterDims S50000x1024 S250000x1 S250000x1024 where
  updateWindowDims := [1]
  insertedWindowDims := [0]
  scatterDimsToOperandDims := [0]
  indexVectorDim := 1
  wf := scatter_S50000x1024_S250000x1_S250000x1024_1_0_0_1_wf
def dot_S400x1024_S1024x1024_S400x1024_1_0_0_1_n_n : DotDims S400x1024 S1024x1024 S400x1024 where
  lhsContracting := [1]
  rhsContracting := [0]
  lhsNonContracting := [0]
  rhsNonContracting := [1]
  lhsBatch := []
  rhsBatch := []
  wf := dot_S400x1024_S1024x1024_S400x1024_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x1024_S50000x1_S50000x1024_1_0_0_1 : ScatterDims S64x1024 S50000x1 S50000x1024 where
  updateWindowDims := [1]
  insertedWindowDims := [0]
  scatterDimsToOperandDims := [0]
  indexVectorDim := 1
  wf := scatter_S64x1024_S50000x1_S50000x1024_1_0_0_1_wf
def dot_S64x2560_S2560x1024_S64x1024_1_0_0_1_n_n : DotDims S64x2560 S2560x1024 S64x1024 where
  lhsContracting := [1]
  rhsContracting := [0]
  lhsNonContracting := [0]
  rhsNonContracting := [1]
  lhsBatch := []
  rhsBatch := []
  wf := dot_S64x2560_S2560x1024_S64x1024_1_0_0_1_n_n_wf
def dot_S64x1024_S1024x80_S64x80_1_0_0_1_n_n : DotDims S64x1024 S1024x80 S64x80 where
  lhsContracting := [1]
  rhsContracting := [0]
  lhsNonContracting := [0]
  rhsNonContracting := [1]
  lhsBatch := []
  rhsBatch := []
  wf := dot_S64x1024_S1024x80_S64x80_1_0_0_1_n_n_wf

abbrev win0_0 : Pipeline.Window sig grid0 :=
  Pipeline.Window.ofSpec (Memref.whole main_arg1) S400x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1536x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S400x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S400x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S400x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v80) S64x2560.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S2560x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S1024x80.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v82) S1x80.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v83) S64x80.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S64x1536 : Shape := ⟨2, ![64, 1536]⟩
abbrev S50000x1536 : Shape := ⟨2, ![50000, 1536]⟩
abbrev S2x200000 : Shape := ⟨2, ![2, 200000]⟩
abbrev S50000 : Shape := ⟨1, ![50000]⟩
abbrev S1536x1024 : Shape := ⟨2, ![1536, 1024]⟩
abbrev S1024 : Shape := ⟨1, ![1024]⟩
abbrev S1024x1024 : Shape := ⟨2, ![1024, 1024]⟩
abbrev S2560x1024 : Shape := ⟨2, ![2560, 1024]⟩
abbrev S1024x80 : Shape := ⟨2, ![1024, 80]⟩
abbrev S80 : Shape := ⟨1, ![80]⟩
abbrev S1x200000 : Shape := ⟨2, ![1, 200000]⟩
abbrev S200000 : Shape := ⟨1, ![200000]⟩
abbrev S250000 : Shape := ⟨1, ![250000]⟩
abbrev S_ : Shape := ⟨0, ![]⟩
abbrev S250000x1 : Shape := ⟨2, ![250000, 1]⟩
abbrev S50000x1024 : Shape := ⟨2, ![50000, 1024]⟩
abbrev S250000x1024 : Shape := ⟨2, ![250000, 1024]⟩
abbrev S1x1024 : Shape := ⟨2, ![1, 1024]⟩
abbrev S64 : Shape := ⟨1, ![64]⟩
abbrev S50000x1 : Shape := ⟨2, ![50000, 1]⟩
abbrev S64x1024 : Shape := ⟨2, ![64, 1024]⟩
abbrev S64x1 : Shape := ⟨2, ![64, 1]⟩
abbrev S64x2560 : Shape := ⟨2, ![64, 2560]⟩
abbrev S64x80 : Shape := ⟨2, ![64, 80]⟩
abbrev S1x80 : Shape := ⟨2, ![1, 80]⟩

abbrev nBuf : Space → Nat
  | .hbm => 129
  | .vmem => 0
  | .smem => 0
  | _ => 0

abbrev hbmTy0_0 (i : Nat) : BufTy := match i % 128 with
  | 0 => ⟨S64x1536, .f32⟩
  | 1 => ⟨S50000x1536, .f32⟩
  | 2 => ⟨S2x200000, .i32⟩
  | 3 => ⟨S50000, .i32⟩
  | 4 => ⟨S1536x1024, .f32⟩
  | 5 => ⟨S1024, .f32⟩
  | 6 => ⟨S1024x1024, .f32⟩
  | 7 => ⟨S1024, .f32⟩
  | 8 => ⟨S2560x1024, .f32⟩
  | 9 => ⟨S1024, .f32⟩
  | 10 => ⟨S1024x80, .f32⟩
  | 11 => ⟨S80, .f32⟩
  | 12 => ⟨S50000, .i32⟩
  | 13 => ⟨S1x200000, .i32⟩
  | 14 => ⟨S200000, .i32⟩
  | 15 => ⟨S250000, .i32⟩
  | 16 => ⟨S1x200000, .i32⟩
  | 17 => ⟨S200000, .i32⟩
  | 18 => ⟨S250000, .i32⟩
  | 19 => ⟨S_, .f32⟩
  | 20 => ⟨S250000, .f32⟩
  | 21 => ⟨S_, .f32⟩
  | 22 => ⟨S50000, .f32⟩
  | 23 => ⟨S250000x1, .i32⟩
  | 24 => ⟨S50000, .f32⟩
  | 25 => ⟨S_, .f32⟩
  | 26 => ⟨S50000, .f32⟩
  | 27 => ⟨S50000, .i1⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S250000, .i32⟩
  | 38 => ⟨S250000, .i1⟩
  | 39 => ⟨S_, .i32⟩
  | 40 => ⟨S250000, .i32⟩
  | 41 => ⟨S250000, .i32⟩
  | 42 => ⟨S250000, .i32⟩
  | 43 => ⟨S250000x1, .i32⟩
  | 44 => ⟨S250000, .f32⟩
  | 45 => ⟨S_, .i32⟩
  | 46 => ⟨S250000, .i32⟩
  | 47 => ⟨S250000, .i1⟩
  | 48 => ⟨S_, .i32⟩
  | 49 => ⟨S250000, .i32⟩
  | 50 => ⟨S250000, .i32⟩
  | 51 => ⟨S250000, .i32⟩
  | 52 => ⟨S250000x1, .i32⟩
  | 53 => ⟨S250000, .f32⟩
  | 54 => ⟨S250000, .f32⟩
  | 55 => ⟨S50000x1024, .f32⟩
  | 56 => ⟨S_, .i32⟩
  | 57 => ⟨S250000, .i32⟩
  | 58 => ⟨S250000, .i1⟩
  | 59 => ⟨S_, .i32⟩
  | 60 => ⟨S250000, .i32⟩
  | 61 => ⟨S250000, .i32⟩
  | 62 => ⟨S250000, .i32⟩
  | 63 => ⟨S250000x1, .i32⟩
  | 64 => ⟨S250000x1024, .f32⟩
  | 65 => ⟨S250000x1, .f32⟩
  | 66 => ⟨S250000x1024, .f32⟩
  | 67 => ⟨S250000x1024, .f32⟩
  | 68 => ⟨S_, .f32⟩
  | 69 => ⟨S50000x1024, .f32⟩
  | 70 => ⟨S250000x1, .i32⟩
  | 71 => ⟨S50000x1024, .f32⟩
  | 72 => ⟨S1x1024, .f32⟩
  | 73 => ⟨S50000x1024, .f32⟩
  | 74 => ⟨S50000x1024, .f32⟩
  | 75 => ⟨S_, .f32⟩
  | 76 => ⟨S50000x1024, .f32⟩
  | 77 => ⟨S50000x1024, .f32⟩
  | 78 => ⟨S50000x1024, .f32⟩
  | 79 => ⟨S_, .i32⟩
  | 80 => ⟨S250000, .i32⟩
  | 81 => ⟨S250000, .i1⟩
  | 82 => ⟨S_, .i32⟩
  | 83 => ⟨S250000, .i32⟩
  | 84 => ⟨S250000, .i32⟩
  | 85 => ⟨S250000, .i32⟩
  | 86 => ⟨S250000x1, .i32⟩
  | 87 => ⟨S250000x1024, .f32⟩
  | 88 => ⟨S250000x1, .f32⟩
  | 89 => ⟨S250000x1024, .f32⟩
  | 90 => ⟨S250000x1024, .f32⟩
  | 91 => ⟨S_, .f32⟩
  | 92 => ⟨S50000x1024, .f32⟩
  | 93 => ⟨S250000x1, .i32⟩
  | 94 => ⟨S50000x1024, .f32⟩
  | 95 => ⟨S1x1024, .f32⟩
  | 96 => ⟨S50000x1024, .f32⟩
  | 97 => ⟨S50000x1024, .f32⟩
  | 98 => ⟨S_, .f32⟩
  | 99 => ⟨S50000x1024, .f32⟩
  | 100 => ⟨S50000x1024, .f32⟩
  | 101 => ⟨S_, .f32⟩
  | 102 => ⟨S50000, .f32⟩
  | 103 => ⟨S_, .f32⟩
  | 104 => ⟨S64, .f32⟩
  | 105 => ⟨S50000x1, .i32⟩
  | 106 => ⟨S64, .f32⟩
  | 107 => ⟨S_, .f32⟩
  | 108 => ⟨S64x1024, .f32⟩
  | 109 => ⟨S50000x1, .i32⟩
  | 110 => ⟨S64x1024, .f32⟩
  | 111 => ⟨S_, .f32⟩
  | 112 => ⟨S64, .f32⟩
  | 113 => ⟨S64, .f32⟩
  | 114 => ⟨S64x1, .f32⟩
  | 115 => ⟨S64x1024, .f32⟩
  | 116 => ⟨S64x1024, .f32⟩
  | 117 => ⟨S64x2560, .f32⟩
  | 118 => ⟨S64x1024, .f32⟩
  | 119 => ⟨S1x1024, .f32⟩
  | 120 => ⟨S64x1024, .f32⟩
  | 121 => ⟨S64x1024, .f32⟩
  | 122 => ⟨S_, .f32⟩
  | 123 => ⟨S64x1024, .f32⟩
  | 124 => ⟨S64x1024, .f32⟩
  | 125 => ⟨S64x80, .f32⟩
  | 126 => ⟨S1x80, .f32⟩
  | 127 => ⟨S64x80, .f32⟩
  | _ => ⟨S64x1536, .f32⟩

abbrev hbmTy0_1 (i : Nat) : BufTy := match i % 128 with
  | 0 => ⟨S64x80, .f32⟩
  | _ => ⟨S64x1536, .f32⟩

abbrev hbmTy (i : Nat) : BufTy := match i / 128 with
  | 0 => hbmTy0_0 i
  | 1 => hbmTy0_1 i
  | _ => ⟨S64x1536, .f32⟩

abbrev bufTy : (tb : Table) → Fin (tcTables nBuf tb) → BufTy
  | .hbm, ⟨i, _⟩ => hbmTy i
  | _, _ => ⟨S64x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_cst : Ref sig .tc := ⟨.hbm, 98, rfl⟩
abbrev main_call2_v0 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call3_cst : Ref sig .tc := ⟨.hbm, 122, rfl⟩
abbrev main_call3_v0 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  concatenates_S200000_S50000_S250000_d0 : Shape.Concatenates [S200000, S50000] S250000 0
  slices_S2x200000_S1x200000_1_0 : S2x200000.Slices ![1, 0] S1x200000
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  bcast_S250000x1_S250000x1024_0_1 : S250000x1.BroadcastsInDim S250000x1024 (![0, 1] : Fin 2 → Fin S250000x1024.rank)
  bcast_S_S50000x1024 : S_.BroadcastsInDim S50000x1024 (![] : Fin 0 → Fin S50000x1024.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S_S64 : S_.BroadcastsInDim S64 (![] : Fin 0 → Fin S64.rank)
  bcast_S50000_S50000x1_0 : S50000.BroadcastsInDim S50000x1 (![0] : Fin 1 → Fin S50000x1.rank)
  bcast_S_S64x1024 : S_.BroadcastsInDim S64x1024 (![] : Fin 0 → Fin S64x1024.rank)
  bcast_S64_S64x1_0 : S64.BroadcastsInDim S64x1 (![0] : Fin 1 → Fin S64x1.rank)
  bcast_S64x1_S64x1024_0_1 : S64x1.BroadcastsInDim S64x1024 (![0, 1] : Fin 2 → Fin S64x1024.rank)
  concatenates_S64x1536_S64x1024_S64x2560_d1 : Shape.Concatenates [S64x1536, S64x1024] S64x2560 1
  bcast_S1x1024_S64x1024_0_1 : S1x1024.BroadcastsInDim S64x1024 (![0, 1] : Fin 2 → Fin S64x1024.rank)
  bcast_S80_S1x80_1 : S80.BroadcastsInDim S1x80 (![1] : Fin 1 → Fin S1x80.rank)
  bcast_S1x80_S64x80_0_1 : S1x80.BroadcastsInDim S64x80 (![0, 1] : Fin 2 → Fin S64x80.rank)
  scatter_S50000_S250000x1_S250000_n_0_0_1_wf : ScatterDims.WF S50000 S250000x1 S250000 [] [0] [0] 1
  gather_S50000_S250000x1_S250000_n_0_n_n_0_1_1_wf : GatherDims.WF S50000 S250000x1 S250000 [] [0] [] [0] [] 1 ![1]
  dot_S50000x1536_S1536x1024_S50000x1024_1_0_0_1_n_n_wf : DotDims.WF S50000x1536 S1536x1024 S50000x1024 [1] [0] [0] [1] [] []
  gather_S50000x1024_S250000x1_S250000x1024_1_0_n_n_0_1_11024_wf : GatherDims.WF S50000x1024 S250000x1 S250000x1024 [1] [0] [] [0] [] 1 ![1, 1024]
  scatter_S50000x1024_S250000x1_S250000x1024_1_0_0_1_wf : ScatterDims.WF S50000x1024 S250000x1 S250000x1024 [1] [0] [0] 1
  dot_S50000x1024_S1024x1024_S50000x1024_1_0_0_1_n_n_wf : DotDims.WF S50000x1024 S1024x1024 S50000x1024 [1] [0] [0] [1] [] []
  scatter_S64_S50000x1_S50000_n_0_0_1_wf : ScatterDims.WF S64 S50000x1 S50000 [] [0] [0] 1
  scatter_S64x1024_S50000x1_S50000x1024_1_0_0_1_wf : ScatterDims.WF S64x1024 S50000x1 S50000x1024 [1] [0] [0] 1
  dot_S64x2560_S2560x1024_S64x1024_1_0_0_1_n_n_wf : DotDims.WF S64x2560 S2560x1024 S64x1024 [1] [0] [0] [1] [] []
  dot_S64x1024_S1024x80_S64x80_1_0_0_1_n_n_wf : DotDims.WF S64x1024 S1024x80 S64x80 [1] [0] [0] [1] [] []

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000_S250000x1_S250000_n_0_n_n_0_1_1 : GatherDims S50000 S250000x1 S250000 where
  offsetDims := []
  collapsedSliceDims := [0]
  operandBatchingDims := []
  startIndicesBatchingDims := []
  startIndexMap := [0]
  indexVectorDim := 1
  sliceSizes := ![1]
  wf := gather_S50000_S250000x1_S250000_n_0_n_n_0_1_1_wf
def dot_S50000x1536_S1536x1024_S50000x1024_1_0_0_1_n_n : DotDims S50000x1536 S1536x1024 S50000x1024 where
  lhsContracting := [1]
  rhsContracting := [0]
  lhsNonContracting := [0]
  rhsNonContracting := [1]
  lhsBatch := []
  rhsBatch := []
  wf := dot_S50000x1536_S1536x1024_S50000x1024_1_0_0_1_n_n_wf
def gather_S50000x1024_S250000x1_S250000x1024_1_0_n_n_0_1_11024 : GatherDims S50000x1024 S250000x1 S250000x1024 where
  offsetDims := [1]
  collapsedSliceDims := [0]
  operandBatchingDims := []
  startIndicesBatchingDims := []
  startIndexMap := [0]
  indexVectorDim := 1
  sliceSizes := ![1, 1024]
  wf := gather_S50000x1024_S250000x1_S250000x1024_1_0_n_n_0_1_11024_wf
def scatter_S50000x1024_S250000x1_S250000x1024_1_0_0_1 : ScatterDims S50000x1024 S250000x1 S250000x1024 where
  updateWindowDims := [1]
  insertedWindowDims := [0]
  scatterDimsToOperandDims := [0]
  indexVectorDim := 1
  wf := scatter_S50000x1024_S250000x1_S250000x1024_1_0_0_1_wf
def dot_S50000x1024_S1024x1024_S50000x1024_1_0_0_1_n_n : DotDims S50000x1024 S1024x1024 S50000x1024 where
  lhsContracting := [1]
  rhsContracting := [0]
  lhsNonContracting := [0]
  rhsNonContracting := [1]
  lhsBatch := []
  rhsBatch := []
  wf := dot_S50000x1024_S1024x1024_S50000x1024_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x1024_S50000x1_S50000x1024_1_0_0_1 : ScatterDims S64x1024 S50000x1 S50000x1024 where
  updateWindowDims := [1]
  insertedWindowDims := [0]
  scatterDimsToOperandDims := [0]
  indexVectorDim := 1
  wf := scatter_S64x1024_S50000x1_S50000x1024_1_0_0_1_wf
def dot_S64x2560_S2560x1024_S64x1024_1_0_0_1_n_n : DotDims S64x2560 S2560x1024 S64x1024 where
  lhsContracting := [1]
  rhsContracting := [0]
  lhsNonContracting := [0]
  rhsNonContracting := [1]
  lhsBatch := []
  rhsBatch := []
  wf := dot_S64x2560_S2560x1024_S64x1024_1_0_0_1_n_n_wf
def dot_S64x1024_S1024x80_S64x80_1_0_0_1_n_n : DotDims S64x1024 S1024x80 S64x80 where
  lhsContracting := [1]
  rhsContracting := [0]
  lhsNonContracting := [0]
  rhsNonContracting := [1]
  lhsBatch := []
  rhsBatch := []
  wf := dot_S64x1024_S1024x80_S64x80_1_0_0_1_n_n_wf

class Facts : Prop extends Facts₀ where

variable [Facts]
-- ==== Proof.KDots.lean ====
/-
  The kernel's four matrix products, each read at an output index, at the ideal values.

  Every `tpu.matmul` of the three kernel bodies multiplies a block `[M, K]` by a block `[K, N]` into a zero
  accumulator, contracting the left operand's columns with the right operand's rows. Over the extended reals such a
  product at the output index `(r, c)` is the finite sum over `k < K` of `l (r, k) * r (k, c)`: no rounding and
  no order is left in it. The four lemmas below say so for the four shapes that occur
  (400×1536·1536×1024, 400×1024·1024×1024, 64×2560·2560×1024, 64×1024·1024×80), with the operand indices written as
  explicit pairs. Each is the library's sum over the record's contraction index, re-indexed along the equivalence
  of that index type with `Fin K`; the four coordinate facts per record say which coordinate of an operand index
  comes from the output index and which from the contraction index.
-/
import proofs.«130635_j19112604467789_1_alg».proof.Proof.Gen.KernelIdeal.Skeleton
import Idealize.ShloMosaic.Lib.ValueIdx
import Idealize.ShloMosaic.PureOps.Ideal.Laws

noncomputable section

namespace Cert.KernelIdeal.Dots

open Cert.KernelIdeal Idealize.ShloMosaic Idealize.ShloMosaic.TcCoe

/-! ## 400×1536 · 1536×1024 -/

theorem lhsA_0 (i : S400x1024.Idx) (q : dot_S400x1536_S1536x1024_S400x1024_1_0_0_1_n_n.contr.Idx) :
    (dot_S400x1536_S1536x1024_S400x1024_1_0_0_1_n_n.lhsIdx i q 0).val = (i 0).val := by
  unfold DotDims.lhsIdx
  rw [dif_neg (show ¬(0 : Fin S400x1536.rank) ∈ dot_S400x1536_S1536x1024_S400x1024_1_0_0_1_n_n.lhsBatch by decide), dif_pos (show (0 : Fin S400x1536.rank) ∈ dot_S400x1536_S1536x1024_S400x1024_1_0_0_1_n_n.lhsNonContracting by decide)]
  rfl
theorem lhsA_1 (i : S400x1024.Idx) (q : dot_S400x1536_S1536x1024_S400x1024_1_0_0_1_n_n.contr.Idx) :
    (dot_S400x1536_S1536x1024_S400x1024_1_0_0_1_n_n.lhsIdx i q 1).val = (q ⟨0, by decide⟩).val :=
  dot_S400x1536_S1536x1024_S400x1024_1_0_0_1_n_n.lhsIdx_val_of_single rfl i q
theorem rhsA_0 (i : S400x1024.Idx) (q : dot_S400x1536_S1536x1024_S400x1024_1_0_0_1_n_n.contr.Idx) :
    (dot_S400x1536_S1536x1024_S400x1024_1_0_0_1_n_n.rhsIdx i q 0).val = (q ⟨0, by decide⟩).val :=
  dot_S400x1536_S1536x1024_S400x1024_1_0_0_1_n_n.rhsIdx_val_of_single rfl i q
theorem rhsA_1 (i : S400x1024.Idx) (q : dot_S400x1536_S1536x1024_S400x1024_1_0_0_1_n_n.contr.Idx) :
    (dot_S400x1536_S1536x1024_S400x1024_1_0_0_1_n_n.rhsIdx i q 1).val = (i 1).val := by
  unfold DotDims.rhsIdx
  rw [dif_neg (show ¬(1 : Fin S1536x1024.rank) ∈ dot_S400x1536_S1536x1024_S400x1024_1_0_0_1_n_n.rhsBatch by decide), dif_pos (show (1 : Fin S1536x1024.rank) ∈ dot_S400x1536_S1536x1024_S400x1024_1_0_0_1_n_n.rhsNonContracting by decide)]
  rfl
/-- Row `r` of the output, column `k` of the left block. -/
abbrev lixA (i : S400x1024.Idx) (k : Fin 1536) : S400x1536.Idx := fun a => match a with
  | ⟨0, _⟩ => ⟨(i 0).val, (i 0).isLt⟩
  | ⟨1, _⟩ => ⟨k.val, k.isLt⟩
/-- Row `k` of the right block, column `c` of the output. -/
abbrev rixA (i : S400x1024.Idx) (k : Fin 1536) : S1536x1024.Idx := fun a => match a with
  | ⟨0, _⟩ => ⟨k.val, k.isLt⟩
  | ⟨1, _⟩ => ⟨(i 1).val, (i 1).isLt⟩
/-- The 400×1536 by 1536×1024 product into zero, at an index: the sum over the 1536 shared coordinates. -/
theorem matmulA_apply {φ₁ φ₂ : FTy} (l : FVec Ideal S400x1536 φ₁) (r : FVec Ideal S1536x1024 φ₂) (i : S400x1024.Idx) :
    FloatOps.matmul dot_S400x1536_S1536x1024_S400x1024_1_0_0_1_n_n none l r (constant (F := Ideal) S400x1024 .f32 0x00000000#32) i
      = ∑ k : Fin 1536, l (lixA i k) * r (rixA i k) := by
  rw [Ideal.matmul_constant_zero_apply, ← Equiv.sum_comp (ValueIdx.contrEquiv1 dot_S400x1536_S1536x1024_S400x1024_1_0_0_1_n_n 1536 rfl rfl).symm]
  refine Finset.sum_congr rfl fun k _ => ?_
  have hk := ValueIdx.contrEquiv1_symm_val dot_S400x1536_S1536x1024_S400x1024_1_0_0_1_n_n 1536 rfl rfl k
  have el : dot_S400x1536_S1536x1024_S400x1024_1_0_0_1_n_n.lhsIdx i ((ValueIdx.contrEquiv1 dot_S400x1536_S1536x1024_S400x1024_1_0_0_1_n_n 1536 rfl rfl).symm k) = lixA i k := funext fun a => Fin.ext (by
    match a with
    | ⟨0, _⟩ => exact lhsA_0 _ _
    | ⟨1, _⟩ => exact (lhsA_1 _ _).trans hk)
  have er : dot_S400x1536_S1536x1024_S400x1024_1_0_0_1_n_n.rhsIdx i ((ValueIdx.contrEquiv1 dot_S400x1536_S1536x1024_S400x1024_1_0_0_1_n_n 1536 rfl rfl).symm k) = rixA i k := funext fun a => Fin.ext (by
    match a with
    | ⟨0, _⟩ => exact (rhsA_0 _ _).trans hk
    | ⟨1, _⟩ => exact rhsA_1 _ _)
  rw [el, er]

/-! ## 400×1024 · 1024×1024 -/

theorem lhsB_0 (i : S400x1024.Idx) (q : dot_S400x1024_S1024x1024_S400x1024_1_0_0_1_n_n.contr.Idx) :
    (dot_S400x1024_S1024x1024_S400x1024_1_0_0_1_n_n.lhsIdx i q 0).val = (i 0).val := by
  unfold DotDims.lhsIdx
  rw [dif_neg (show ¬(0 : Fin S400x1024.rank) ∈ dot_S400x1024_S1024x1024_S400x1024_1_0_0_1_n_n.lhsBatch by decide), dif_pos (show (0 : Fin S400x1024.rank) ∈ dot_S400x1024_S1024x1024_S400x1024_1_0_0_1_n_n.lhsNonContracting by decide)]
  rfl
theorem lhsB_1 (i : S400x1024.Idx) (q : dot_S400x1024_S1024x1024_S400x1024_1_0_0_1_n_n.contr.Idx) :
    (dot_S400x1024_S1024x1024_S400x1024_1_0_0_1_n_n.lhsIdx i q 1).val = (q ⟨0, by decide⟩).val :=
  dot_S400x1024_S1024x1024_S400x1024_1_0_0_1_n_n.lhsIdx_val_of_single rfl i q
theorem rhsB_0 (i : S400x1024.Idx) (q : dot_S400x1024_S1024x1024_S400x1024_1_0_0_1_n_n.contr.Idx) :
    (dot_S400x1024_S1024x1024_S400x1024_1_0_0_1_n_n.rhsIdx i q 0).val = (q ⟨0, by decide⟩).val :=
  dot_S400x1024_S1024x1024_S400x1024_1_0_0_1_n_n.rhsIdx_val_of_single rfl i q
theorem rhsB_1 (i : S400x1024.Idx) (q : dot_S400x1024_S1024x1024_S400x1024_1_0_0_1_n_n.contr.Idx) :
    (dot_S400x1024_S1024x1024_S400x1024_1_0_0_1_n_n.rhsIdx i q 1).val = (i 1).val := by
  unfold DotDims.rhsIdx
  rw [dif_neg (show ¬(1 : Fin S1024x1024.rank) ∈ dot_S400x1024_S1024x1024_S400x1024_1_0_0_1_n_n.rhsBatch by decide), dif_pos (show (1 : Fin S1024x1024.rank) ∈ dot_S400x1024_S1024x1024_S400x1024_1_0_0_1_n_n.rhsNonContracting by decide)]
  rfl
abbrev lixB (i : S400x1024.Idx) (k : Fin 1024) : S400x1024.Idx := fun a => match a with
  | ⟨0, _⟩ => ⟨(i 0).val, (i 0).isLt⟩
  | ⟨1, _⟩ => ⟨k.val, k.isLt⟩
abbrev rixB (i : S400x1024.Idx) (k : Fin 1024) : S1024x1024.Idx := fun a => match a with
  | ⟨0, _⟩ => ⟨k.val, k.isLt⟩
  | ⟨1, _⟩ => ⟨(i 1).val, (i 1).isLt⟩
/-- The 400×1024 by 1024×1024 product into zero, at an index. -/
theorem matmulB_apply {φ₁ φ₂ : FTy} (l : FVec Ideal S400x1024 φ₁) (r : FVec Ideal S1024x1024 φ₂) (i : S400x1024.Idx) :
    FloatOps.matmul dot_S400x1024_S1024x1024_S400x1024_1_0_0_1_n_n none l r (constant (F := Ideal) S400x1024 .f32 0x00000000#32) i
      = ∑ k : Fin 1024, l (lixB i k) * r (rixB i k) := by
  rw [Ideal.matmul_constant_zero_apply, ← Equiv.sum_comp (ValueIdx.contrEquiv1 dot_S400x1024_S1024x1024_S400x1024_1_0_0_1_n_n 1024 rfl rfl).symm]
  refine Finset.sum_congr rfl fun k _ => ?_
  have hk := ValueIdx.contrEquiv1_symm_val dot_S400x1024_S1024x1024_S400x1024_1_0_0_1_n_n 1024 rfl rfl k
  have el : dot_S400x1024_S1024x1024_S400x1024_1_0_0_1_n_n.lhsIdx i ((ValueIdx.contrEquiv1 dot_S400x1024_S1024x1024_S400x1024_1_0_0_1_n_n 1024 rfl rfl).symm k) = lixB i k := funext fun a => Fin.ext (by
    match a with
    | ⟨0, _⟩ => exact lhsB_0 _ _
    | ⟨1, _⟩ => exact (lhsB_1 _ _).trans hk)
  have er : dot_S400x1024_S1024x1024_S400x1024_1_0_0_1_n_n.rhsIdx i ((ValueIdx.contrEquiv1 dot_S400x1024_S1024x1024_S400x1024_1_0_0_1_n_n 1024 rfl rfl).symm k) = rixB i k := funext fun a => Fin.ext (by
    match a with
    | ⟨0, _⟩ => exact (rhsB_0 _ _).trans hk
    | ⟨1, _⟩ => exact rhsB_1 _ _)
  rw [el, er]

/-! ## 64×2560 · 2560×1024 -/

theorem lhsC_0 (i : S64x1024.Idx) (q : dot_S64x2560_S2560x1024_S64x1024_1_0_0_1_n_n.contr.Idx) :
    (dot_S64x2560_S2560x1024_S64x1024_1_0_0_1_n_n.lhsIdx i q 0).val = (i 0).val := by
  unfold DotDims.lhsIdx
  rw [dif_neg (show ¬(0 : Fin S64x2560.rank) ∈ dot_S64x2560_S2560x1024_S64x1024_1_0_0_1_n_n.lhsBatch by decide), dif_pos (show (0 : Fin S64x2560.rank) ∈ dot_S64x2560_S2560x1024_S64x1024_1_0_0_1_n_n.lhsNonContracting by decide)]
  rfl
theorem lhsC_1 (i : S64x1024.Idx) (q : dot_S64x2560_S2560x1024_S64x1024_1_0_0_1_n_n.contr.Idx) :
    (dot_S64x2560_S2560x1024_S64x1024_1_0_0_1_n_n.lhsIdx i q 1).val = (q ⟨0, by decide⟩).val :=
  dot_S64x2560_S2560x1024_S64x1024_1_0_0_1_n_n.lhsIdx_val_of_single rfl i q
theorem rhsC_0 (i : S64x1024.Idx) (q : dot_S64x2560_S2560x1024_S64x1024_1_0_0_1_n_n.contr.Idx) :
    (dot_S64x2560_S2560x1024_S64x1024_1_0_0_1_n_n.rhsIdx i q 0).val = (q ⟨0, by decide⟩).val :=
  dot_S64x2560_S2560x1024_S64x1024_1_0_0_1_n_n.rhsIdx_val_of_single rfl i q
theorem rhsC_1 (i : S64x1024.Idx) (q : dot_S64x2560_S2560x1024_S64x1024_1_0_0_1_n_n.contr.Idx) :
    (dot_S64x2560_S2560x1024_S64x1024_1_0_0_1_n_n.rhsIdx i q 1).val = (i 1).val := by
  unfold DotDims.rhsIdx
  rw [dif_neg (show ¬(1 : Fin S2560x1024.rank) ∈ dot_S64x2560_S2560x1024_S64x1024_1_0_0_1_n_n.rhsBatch by decide), dif_pos (show (1 : Fin S2560x1024.rank) ∈ dot_S64x2560_S2560x1024_S64x1024_1_0_0_1_n_n.rhsNonContracting by decide)]
  rfl
abbrev lixC (i : S64x1024.Idx) (k : Fin 2560) : S64x2560.Idx := fun a => match a with
  | ⟨0, _⟩ => ⟨(i 0).val, (i 0).isLt⟩
  | ⟨1, _⟩ => ⟨k.val, k.isLt⟩
abbrev rixC (i : S64x1024.Idx) (k : Fin 2560) : S2560x1024.Idx := fun a => match a with
  | ⟨0, _⟩ => ⟨k.val, k.isLt⟩
  | ⟨1, _⟩ => ⟨(i 1).val, (i 1).isLt⟩
/-- The 64×2560 by 2560×1024 product into zero, at an index. -/
theorem matmulC_apply {φ₁ φ₂ : FTy} (l : FVec Ideal S64x2560 φ₁) (r : FVec Ideal S2560x1024 φ₂) (i : S64x1024.Idx) :
    FloatOps.matmul dot_S64x2560_S2560x1024_S64x1024_1_0_0_1_n_n none l r (constant (F := Ideal) S64x1024 .f32 0x00000000#32) i
      = ∑ k : Fin 2560, l (lixC i k) * r (rixC i k) := by
  rw [Ideal.matmul_constant_zero_apply, ← Equiv.sum_comp (ValueIdx.contrEquiv1 dot_S64x2560_S2560x1024_S64x1024_1_0_0_1_n_n 2560 rfl rfl).symm]
  refine Finset.sum_congr rfl fun k _ => ?_
  have hk := ValueIdx.contrEquiv1_symm_val dot_S64x2560_S2560x1024_S64x1024_1_0_0_1_n_n 2560 rfl rfl k
  have el : dot_S64x2560_S2560x1024_S64x1024_1_0_0_1_n_n.lhsIdx i ((ValueIdx.contrEquiv1 dot_S64x2560_S2560x1024_S64x1024_1_0_0_1_n_n 2560 rfl rfl).symm k) = lixC i k := funext fun a => Fin.ext (by
    match a with
    | ⟨0, _⟩ => exact lhsC_0 _ _
    | ⟨1, _⟩ => exact (lhsC_1 _ _).trans hk)
  have er : dot_S64x2560_S2560x1024_S64x1024_1_0_0_1_n_n.rhsIdx i ((ValueIdx.contrEquiv1 dot_S64x2560_S2560x1024_S64x1024_1_0_0_1_n_n 2560 rfl rfl).symm k) = rixC i k := funext fun a => Fin.ext (by
    match a with
    | ⟨0, _⟩ => exact (rhsC_0 _ _).trans hk
    | ⟨1, _⟩ => exact rhsC_1 _ _)
  rw [el, er]

/-! ## 64×1024 · 1024×80 -/

theorem lhsD_0 (i : S64x80.Idx) (q : dot_S64x1024_S1024x80_S64x80_1_0_0_1_n_n.contr.Idx) :
    (dot_S64x1024_S1024x80_S64x80_1_0_0_1_n_n.lhsIdx i q 0).val = (i 0).val := by
  unfold DotDims.lhsIdx
  rw [dif_neg (show ¬(0 : Fin S64x1024.rank) ∈ dot_S64x1024_S1024x80_S64x80_1_0_0_1_n_n.lhsBatch by decide), dif_pos (show (0 : Fin S64x1024.rank) ∈ dot_S64x1024_S1024x80_S64x80_1_0_0_1_n_n.lhsNonContracting by decide)]
  rfl
theorem lhsD_1 (i : S64x80.Idx) (q : dot_S64x1024_S1024x80_S64x80_1_0_0_1_n_n.contr.Idx) :
    (dot_S64x1024_S1024x80_S64x80_1_0_0_1_n_n.lhsIdx i q 1).val = (q ⟨0, by decide⟩).val :=
  dot_S64x1024_S1024x80_S64x80_1_0_0_1_n_n.lhsIdx_val_of_single rfl i q
theorem rhsD_0 (i : S64x80.Idx) (q : dot_S64x1024_S1024x80_S64x80_1_0_0_1_n_n.contr.Idx) :
    (dot_S64x1024_S1024x80_S64x80_1_0_0_1_n_n.rhsIdx i q 0).val = (q ⟨0, by decide⟩).val :=
  dot_S64x1024_S1024x80_S64x80_1_0_0_1_n_n.rhsIdx_val_of_single rfl i q
theorem rhsD_1 (i : S64x80.Idx) (q : dot_S64x1024_S1024x80_S64x80_1_0_0_1_n_n.contr.Idx) :
    (dot_S64x1024_S1024x80_S64x80_1_0_0_1_n_n.rhsIdx i q 1).val = (i 1).val := by
  unfold DotDims.rhsIdx
  rw [dif_neg (show ¬(1 : Fin S1024x80.rank) ∈ dot_S64x1024_S1024x80_S64x80_1_0_0_1_n_n.rhsBatch by decide), dif_pos (show (1 : Fin S1024x80.rank) ∈ dot_S64x1024_S1024x80_S64x80_1_0_0_1_n_n.rhsNonContracting by decide)]
  rfl
abbrev lixD (i : S64x80.Idx) (k : Fin 1024) : S64x1024.Idx := fun a => match a with
  | ⟨0, _⟩ => ⟨(i 0).val, (i 0).isLt⟩
  | ⟨1, _⟩ => ⟨k.val, k.isLt⟩
abbrev rixD (i : S64x80.Idx) (k : Fin 1024) : S1024x80.Idx := fun a => match a with
  | ⟨0, _⟩ => ⟨k.val, k.isLt⟩
  | ⟨1, _⟩ => ⟨(i 1).val, (i 1).isLt⟩
/-- The 64×1024 by 1024×80 product into zero, at an index. -/
theorem matmulD_apply {φ₁ φ₂ : FTy} (l : FVec Ideal S64x1024 φ₁) (r : FVec Ideal S1024x80 φ₂) (i : S64x80.Idx) :
    FloatOps.matmul dot_S64x1024_S1024x80_S64x80_1_0_0_1_n_n none l r (constant (F := Ideal) S64x80 .f32 0x00000000#32) i
      = ∑ k : Fin 1024, l (lixD i k) * r (rixD i k) := by
  rw [Ideal.matmul_constant_zero_apply, ← Equiv.sum_comp (ValueIdx.contrEquiv1 dot_S64x1024_S1024x80_S64x80_1_0_0_1_n_n 1024 rfl rfl).symm]
  refine Finset.sum_congr rfl fun k _ => ?_
  have hk := ValueIdx.contrEquiv1_symm_val dot_S64x1024_S1024x80_S64x80_1_0_0_1_n_n 1024 rfl rfl k
  have el : dot_S64x1024_S1024x80_S64x80_1_0_0_1_n_n.lhsIdx i ((ValueIdx.contrEquiv1 dot_S64x1024_S1024x80_S64x80_1_0_0_1_n_n 1024 rfl rfl).symm k) = lixD i k := funext fun a => Fin.ext (by
    match a with
    | ⟨0, _⟩ => exact lhsD_0 _ _
    | ⟨1, _⟩ => exact (lhsD_1 _ _).trans hk)
  have er : dot_S64x1024_S1024x80_S64x80_1_0_0_1_n_n.rhsIdx i ((ValueIdx.contrEquiv1 dot_S64x1024_S1024x80_S64x80_1_0_0_1_n_n 1024 rfl rfl).symm k) = rixD i k := funext fun a => Fin.ext (by
    match a with
    | ⟨0, _⟩ => exact (rhsD_0 _ _).trans hk
    | ⟨1, _⟩ => exact rhsD_1 _ _)
  rw [el, er]

end Cert.KernelIdeal.Dots

end
-- ==== Proof.Region0.lean ====
/-
  The first projection, `x @ W1`: what the row-blocked kernel leaves in its result array.

  The pallas_call walks 125 grid points; point `t` loads rows `400 t … 400 t + 399` of the left array (all 1536
  columns) and the whole right array, and stores their product as rows `400 t … 400 t + 399` of the result. Entry
  `(r, c)` of that product is `∑ k < 1536, left (400 t + r, k) * right (k, c)`, which is entry `(400 t + r, c)` of
  the whole product `left · right` over the extended reals: the contraction axis is not cut, so the sum is the same
  sum, term by term. The 125 row blocks tile the 50000 rows, so after the run the result array is the whole
  product: the reference's `dot_general` of the same two arrays.

  Stated for any contents `V` of the TensorCore's buffers at the region's entry.
-/
import proofs.«130635_j19112604467789_1_alg».proof.Proof.Gen.KernelIdeal.Frame
import proofs.«130635_j19112604467789_1_alg».proof.Proof.KDots
import proofs.«130635_j19112604467789_1_alg».proof.Proof.RefRead
import Idealize.ShloMosaic.Lib.Pipeline.Value

set_option maxRecDepth 16384

noncomputable section

namespace Cert.KernelIdeal.Region0

open Cert.KernelIdeal Cert.KernelIdeal.Gen Cert.KernelIdeal.Dots Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the body stores, at an entry: the loaded blocks' product there (the narrowing of the operands to bf16 is
    the identity on the extended reals). -/
theorem out_eq (x0 : Vec Ideal S400x1536 .f32) (x1 : Vec Ideal S1536x1024 .f32) (j : S400x1024.Idx) :
    out0_2 (F := Ideal) x0 x1 j = ∑ k : Fin 1536, x0 (lixA j k) * x1 (rixA j k) := by
  unfold out0_2
  rw [View.canon_unit_zero hz]
  simp only [View.ld_unit_zero (S := S400x1536) hz, View.ld_unit_zero (S := S1536x1024) hz]
  unfold k0_pay1
  exact matmulA_apply _ _ j

/-- Entry `j` of the block a point stores is entry `i` of the whole product, when `i` is `j` moved down by the
    point's `n` row blocks, the left block is those rows of `A1` and the right block is `A4`. -/
theorem block_point (A1 : (⟨Cert.ReferenceIdeal.S50000x1536, .f32⟩ : BufTy).Contents (Elt Ideal)) (A4 : (⟨Cert.ReferenceIdeal.S1536x1024, .f32⟩ : BufTy).Contents (Elt Ideal))
    (x0 : Vec Ideal S400x1536 .f32) (x1 : Vec Ideal S1536x1024 .f32) (j : S400x1024.Idx) (i : Cert.ReferenceIdeal.S50000x1024.Idx) (n : Nat)
    (hi0 : (i 0).val = n * 400 + (j 0).val) (hi1 : (i 1).val = (j 1).val)
    (hx0 : ∀ (y : S400x1536.Idx) (z : Cert.ReferenceIdeal.S50000x1536.Idx), (z 0).val = n * 400 + (y 0).val → (z 1).val = (y 1).val → x0 y = A1 z)
    (hx1 : ∀ (y : S1536x1024.Idx) (z : Cert.ReferenceIdeal.S1536x1024.Idx), (z 0).val = (y 0).val → (z 1).val = (y 1).val → x1 y = A4 z) :
    out0_2 (F := Ideal) x0 x1 j = Cert.ReferenceIdeal.ReadP.val_main_v32 (F := Ideal) A1 A4 i := by
  rw [out_eq, Cert.ReferenceIdeal.ReadP.val_main_v32_apply]
  refine Finset.sum_congr rfl fun k _ => ?_
  rw [hx0 (lixA j k) (Cert.ReferenceIdeal.ReadP.lidx_main_v32 i k) hi0 rfl, hx1 (rixA j k) (Cert.ReferenceIdeal.ReadP.ridx_main_v32 i k) rfl hi1]

/-- The index maps over the grid: the left window and the result move one row block per point, the right window
    stays, and no window moves along its columns. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays as the region finds them. -/
theorem flushed_eq (c : Dev nD) (t : Fin cfg0.N) :
    (dat0 V c).flushed 2 t = ((cfg0.win 2).blk t).view.read (Elt Ideal) (Cert.ReferenceIdeal.ReadP.val_main_v32 (F := Ideal) (V c main_arg1) (V c main_arg4)) := by
  show (cfg0.win 2).cut (grid0.coords t) ((dat0 V c).after 2 t) = _
  rw [after0_2]
  obtain ⟨e00, e01, e10, e11, e20, e21⟩ := idx_facts t
  funext j
  show out0_2 (F := Ideal) (iblk0 V c 0 t) (iblk0 V c 1 t) j = Cert.ReferenceIdeal.ReadP.val_main_v32 (F := Ideal) (V c main_arg1) (V c main_arg4) (((cfg0.win 2).blk t).view.emb j)
  refine block_point (V c main_arg1) (V c main_arg4) (iblk0 V c 0 t) (iblk0 V c 1 t) j (((cfg0.win 2).blk t).view.emb j) t.val ?_ ?_ ?_ ?_
  · show win0_2.index t (0 : Fin 2) * 400 + 1 * (j 0).val = t.val * 400 + (j 0).val
    rw [e20]; omega
  · show win0_2.index t (1 : Fin 2) * 1024 + 1 * (j 1).val = (j 1).val
    rw [e21]; omega
  · intro y z h0 h1
    show V c main_arg1 (((cfg0.win 0).blk t).view.emb y) = V c main_arg1 z
    congr 1; funext a; apply Fin.ext
    match a with
    | ⟨0, _⟩ => show win0_0.index t (0 : Fin 2) * 400 + 1 * (y 0).val = (z 0).val; rw [e00, h0]; omega
    | ⟨1, _⟩ => show win0_0.index t (1 : Fin 2) * 1536 + 1 * (y 1).val = (z 1).val; rw [e01, h1]; omega
  · intro y z h0 h1
    show V c main_arg4 (((cfg0.win 1).blk t).view.emb y) = V c main_arg4 z
    congr 1; funext a; apply Fin.ext
    match a with
    | ⟨0, _⟩ => show win0_1.index t (0 : Fin 2) * 1536 + 1 * (y 0).val = (z 0).val; rw [e10, h0]; omega
    | ⟨1, _⟩ => show win0_1.index t (1 : Fin 2) * 1024 + 1 * (y 1).val = (z 1).val; rw [e11, h1]; omega

/-- An index of the result array is in point `t`'s block iff each coordinate is in the block's range on its axis. -/
theorem mem_blk (t : Fin cfg0.N) (i : S50000x1024.Idx) :
    i ∈ ((cfg0.win 2).blk t).view.set ↔ ∀ a : Fin 2, win0_2.index t a * S400x1024.size a ≤ (i a).val ∧ (i a).val < win0_2.index t a * S400x1024.size a + S400x1024.size a := by
  show i ∈ ((View.whole main_v32).slice (win0_2.rect t)).set ↔ _
  rw [View.set_slice_whole, Rect.mem_set_unit]
  exact Iff.rfl

/-- Every entry of the result array is written back by the point of its row block. -/
theorem cover (i : S50000x1024.Idx) : ∃ t : Fin cfg0.N, (cfg0.win 2).flush t = true ∧ i ∈ ((cfg0.win 2).blk t).view.set := by
  have hi0 : (i 0).val < 50000 := (i 0).isLt
  have hi1 : (i 1).val < 1024 := (i 1).isLt
  have hN : cfg0.N = 125 := N_0
  obtain ⟨t, ht⟩ : ∃ t : Fin cfg0.N, t.val = (i 0).val / 400 := ⟨⟨(i 0).val / 400, by rw [hN]; omega⟩, rfl⟩
  obtain ⟨-, -, -, -, e20, e21⟩ := idx_facts t
  refine ⟨t, flush0_2 t, ?_⟩
  rw [mem_blk]
  intro a
  match a with
  | ⟨0, _⟩ => show win0_2.index t (0 : Fin 2) * 400 ≤ (i 0).val ∧ (i 0).val < win0_2.index t (0 : Fin 2) * 400 + 400; rw [e20, ht]; omega
  | ⟨1, _⟩ => show win0_2.index t (1 : Fin 2) * 1024 ≤ (i 1).val ∧ (i 1).val < win0_2.index t (1 : Fin 2) * 1024 + 1024; rw [e21]; omega

/-- After the run the result array is the whole product of the two arrays the region was entered with. -/
theorem value (c : Dev nD) : (dat0 V c).arrAt 2 cfg0.N = Cert.ReferenceIdeal.ReadP.val_main_v32 (F := Ideal) (V c main_arg1) (V c main_arg4) :=
  (dat0 V c).arrAt_eq_of_cover 2 _ (fun t _ => flushed_eq V c t) cover

end Cert.KernelIdeal.Region0

end
-- ==== Proof.Region1.lean ====
/-
  The second projection, `relu(conv1) @ W2`: what the row-blocked kernel leaves in its result array.

  As for the first projection: point `t` of 125 loads rows `400 t … 400 t + 399` of the left array (all 1024
  columns, reshaped to the shape it already has) and the whole right array, and stores their product as the same rows
  of the result; entry `(r, c)` of the block is `∑ k < 1024, left (400 t + r, k) * right (k, c)`, entry
  `(400 t + r, c)` of the whole product; the row blocks tile the 50000 rows. So after the run the result array is
  the host's `dot_general` of the two arrays the region was entered with.

  Stated for any contents `V` of the TensorCore's buffers at the region's entry.
-/
import proofs.«130635_j19112604467789_1_alg».proof.Proof.Gen.KernelIdeal.Frame
import proofs.«130635_j19112604467789_1_alg».proof.Proof.KDots
import proofs.«130635_j19112604467789_1_alg».proof.Proof.RefRead
import Idealize.ShloMosaic.Lib.Pipeline.Value

set_option maxRecDepth 16384

noncomputable section

namespace Cert.KernelIdeal.Region1

open Cert.KernelIdeal Cert.KernelIdeal.Gen Cert.KernelIdeal.Dots Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The host's 50000×1024 by 1024×1024 `dot_general` of ANY two operands, at an index: the sum over the 1024 shared
    coordinates (the reference's own reading of this operation, with its left operand left free). -/
theorem hostDot_apply (y0 : (⟨Cert.ReferenceIdeal.S50000x1024, .f32⟩ : BufTy).Contents (Elt Ideal)) (x6 : (⟨Cert.ReferenceIdeal.S1024x1024, .f32⟩ : BufTy).Contents (Elt Ideal)) (i : Cert.ReferenceIdeal.S50000x1024.Idx) :
    Host.dotGeneral (F := Ideal) (φ₁ := .f32) (φ₂ := .f32) Cert.ReferenceIdeal.dot_S50000x1024_S1024x1024_S50000x1024_1_0_0_1_n_n none y0 x6 i = ∑ k : Fin 1024, y0 (Cert.ReferenceIdeal.ReadP.lidx_main_v50 i k) * x6 (Cert.ReferenceIdeal.ReadP.ridx_main_v50 i k) := by
  simp only [Host.dotGeneral]
  rw [Ideal.dotGeneral_apply, ← Equiv.sum_comp (ValueIdx.contrEquiv1 Cert.ReferenceIdeal.dot_S50000x1024_S1024x1024_S50000x1024_1_0_0_1_n_n 1024 rfl rfl).symm]
  refine Finset.sum_congr rfl fun k _ => ?_
  have hk := ValueIdx.contrEquiv1_symm_val Cert.ReferenceIdeal.dot_S50000x1024_S1024x1024_S50000x1024_1_0_0_1_n_n 1024 rfl rfl k
  have el : Cert.ReferenceIdeal.dot_S50000x1024_S1024x1024_S50000x1024_1_0_0_1_n_n.lhsIdx i ((ValueIdx.contrEquiv1 Cert.ReferenceIdeal.dot_S50000x1024_S1024x1024_S50000x1024_1_0_0_1_n_n 1024 rfl rfl).symm k) = Cert.ReferenceIdeal.ReadP.lidx_main_v50 i k := funext fun a => Fin.ext (by
    match a with
    | ⟨0, _⟩ => exact Cert.ReferenceIdeal.ReadP.lhs_main_v50_0 _ _
    | ⟨1, _⟩ => exact (Cert.ReferenceIdeal.ReadP.lhs_main_v50_1 _ _).trans hk)
  have er : Cert.ReferenceIdeal.dot_S50000x1024_S1024x1024_S50000x1024_1_0_0_1_n_n.rhsIdx i ((ValueIdx.contrEquiv1 Cert.ReferenceIdeal.dot_S50000x1024_S1024x1024_S50000x1024_1_0_0_1_n_n 1024 rfl rfl).symm k) = Cert.ReferenceIdeal.ReadP.ridx_main_v50 i k := funext fun a => Fin.ext (by
    match a with
    | ⟨0, _⟩ => exact (Cert.ReferenceIdeal.ReadP.rhs_main_v50_0 _ _).trans hk
    | ⟨1, _⟩ => exact Cert.ReferenceIdeal.ReadP.rhs_main_v50_1 _ _)
  rw [el, er]

/-- What the body stores, at an entry: the loaded blocks' product there. -/
theorem out_eq (x0 : Vec Ideal S400x1024 .f32) (x1 : Vec Ideal S1024x1024 .f32) (j : S400x1024.Idx) :
    out1_2 (F := Ideal) x0 x1 j = ∑ k : Fin 1024, x0 (lixB j k) * x1 (rixB j k) := by
  unfold out1_2
  rw [View.canon_unit_zero hz]
  simp only [View.ld_unit_zero (S := S400x1024) hz, View.ld_unit_zero (S := S1024x1024) hz]
  unfold k1_pay1
  simp only [shapeCast_self]
  exact matmulB_apply _ _ j

/-- Entry `j` of the block a point stores is entry `i` of the whole product. -/
theorem block_point (A0 : (⟨Cert.ReferenceIdeal.S50000x1024, .f32⟩ : BufTy).Contents (Elt Ideal)) (A1 : (⟨Cert.ReferenceIdeal.S1024x1024, .f32⟩ : BufTy).Contents (Elt Ideal))
    (x0 : Vec Ideal S400x1024 .f32) (x1 : Vec Ideal S1024x1024 .f32) (j : S400x1024.Idx) (i : Cert.ReferenceIdeal.S50000x1024.Idx) (n : Nat)
    (hi0 : (i 0).val = n * 400 + (j 0).val) (hi1 : (i 1).val = (j 1).val)
    (hx0 : ∀ (y : S400x1024.Idx) (z : Cert.ReferenceIdeal.S50000x1024.Idx), (z 0).val = n * 400 + (y 0).val → (z 1).val = (y 1).val → x0 y = A0 z)
    (hx1 : ∀ (y : S1024x1024.Idx) (z : Cert.ReferenceIdeal.S1024x1024.Idx), (z 0).val = (y 0).val → (z 1).val = (y 1).val → x1 y = A1 z) :
    out1_2 (F := Ideal) x0 x1 j = Host.dotGeneral (F := Ideal) (φ₁ := .f32) (φ₂ := .f32) Cert.ReferenceIdeal.dot_S50000x1024_S1024x1024_S50000x1024_1_0_0_1_n_n none A0 A1 i := by
  rw [out_eq, hostDot_apply]
  refine Finset.sum_congr rfl fun k _ => ?_
  rw [hx0 (lixB j k) (Cert.ReferenceIdeal.ReadP.lidx_main_v50 i k) hi0 rfl, hx1 (rixB j k) (Cert.ReferenceIdeal.ReadP.ridx_main_v50 i k) rfl hi1]

/-- The index maps over the grid. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays as the region finds them. -/
theorem flushed_eq (c : Dev nD) (t : Fin cfg1.N) :
    (dat1 V c).flushed 2 t = ((cfg1.win 2).blk t).view.read (Elt Ideal) (Host.dotGeneral (F := Ideal) (φ₁ := .f32) (φ₂ := .f32) Cert.ReferenceIdeal.dot_S50000x1024_S1024x1024_S50000x1024_1_0_0_1_n_n none (V c main_v49) (V c main_arg6)) := by
  show (cfg1.win 2).cut (grid1.coords t) ((dat1 V c).after 2 t) = _
  rw [after1_2]
  obtain ⟨e00, e01, e10, e11, e20, e21⟩ := idx_facts t
  funext j
  show out1_2 (F := Ideal) (iblk1 V c 0 t) (iblk1 V c 1 t) j = Host.dotGeneral (F := Ideal) (φ₁ := .f32) (φ₂ := .f32) Cert.ReferenceIdeal.dot_S50000x1024_S1024x1024_S50000x1024_1_0_0_1_n_n none (V c main_v49) (V c main_arg6) (((cfg1.win 2).blk t).view.emb j)
  refine block_point (V c main_v49) (V c main_arg6) (iblk1 V c 0 t) (iblk1 V c 1 t) j (((cfg1.win 2).blk t).view.emb j) t.val ?_ ?_ ?_ ?_
  · show win1_2.index t (0 : Fin 2) * 400 + 1 * (j 0).val = t.val * 400 + (j 0).val
    rw [e20]; omega
  · show win1_2.index t (1 : Fin 2) * 1024 + 1 * (j 1).val = (j 1).val
    rw [e21]; omega
  · intro y z h0 h1
    show V c main_v49 (((cfg1.win 0).blk t).view.emb y) = V c main_v49 z
    congr 1; funext a; apply Fin.ext
    match a with
    | ⟨0, _⟩ => show win1_0.index t (0 : Fin 2) * 400 + 1 * (y 0).val = (z 0).val; rw [e00, h0]; omega
    | ⟨1, _⟩ => show win1_0.index t (1 : Fin 2) * 1024 + 1 * (y 1).val = (z 1).val; rw [e01, h1]; omega
  · intro y z h0 h1
    show V c main_arg6 (((cfg1.win 1).blk t).view.emb y) = V c main_arg6 z
    congr 1; funext a; apply Fin.ext
    match a with
    | ⟨0, _⟩ => show win1_1.index t (0 : Fin 2) * 1024 + 1 * (y 0).val = (z 0).val; rw [e10, h0]; omega
    | ⟨1, _⟩ => show win1_1.index t (1 : Fin 2) * 1024 + 1 * (y 1).val = (z 1).val; rw [e11, h1]; omega

/-- An index of the result array is in point `t`'s block iff each coordinate is in the block's range on its axis. -/
theorem mem_blk (t : Fin cfg1.N) (i : S50000x1024.Idx) :
    i ∈ ((cfg1.win 2).blk t).view.set ↔ ∀ a : Fin 2, win1_2.index t a * S400x1024.size a ≤ (i a).val ∧ (i a).val < win1_2.index t a * S400x1024.size a + S400x1024.size a := by
  show i ∈ ((View.whole main_v50).slice (win1_2.rect t)).set ↔ _
  rw [View.set_slice_whole, Rect.mem_set_unit]
  exact Iff.rfl

/-- Every entry of the result array is written back by the point of its row block. -/
theorem cover (i : S50000x1024.Idx) : ∃ t : Fin cfg1.N, (cfg1.win 2).flush t = true ∧ i ∈ ((cfg1.win 2).blk t).view.set := by
  have hi0 : (i 0).val < 50000 := (i 0).isLt
  have hi1 : (i 1).val < 1024 := (i 1).isLt
  have hN : cfg1.N = 125 := N_1
  obtain ⟨t, ht⟩ : ∃ t : Fin cfg1.N, t.val = (i 0).val / 400 := ⟨⟨(i 0).val / 400, by rw [hN]; omega⟩, rfl⟩
  obtain ⟨-, -, -, -, e20, e21⟩ := idx_facts t
  refine ⟨t, flush1_2 t, ?_⟩
  rw [mem_blk]
  intro a
  match a with
  | ⟨0, _⟩ => show win1_2.index t (0 : Fin 2) * 400 ≤ (i 0).val ∧ (i 0).val < win1_2.index t (0 : Fin 2) * 400 + 400; rw [e20, ht]; omega
  | ⟨1, _⟩ => show win1_2.index t (1 : Fin 2) * 1024 ≤ (i 1).val ∧ (i 1).val < win1_2.index t (1 : Fin 2) * 1024 + 1024; rw [e21]; omega

/-- After the run the result array is the host's product of the two arrays the region was entered with. -/
theorem value (c : Dev nD) : (dat1 V c).arrAt 2 cfg1.N = Host.dotGeneral (F := Ideal) (φ₁ := .f32) (φ₂ := .f32) Cert.ReferenceIdeal.dot_S50000x1024_S1024x1024_S50000x1024_1_0_0_1_n_n none (V c main_v49) (V c main_arg6) :=
  (dat1 V c).arrAt_eq_of_cover 2 _ (fun t _ => flushed_eq V c t) cover

end Cert.KernelIdeal.Region1

end
-- ==== Proof.Region2.lean ====
/-
  The last call, the two-layer perceptron on the 64 pooled rows: what it leaves in the result array.

  The pallas_call has one grid point and every window's block is its whole array. The body computes
  `max(comb · fw1 + fb1, 0) · fw2 + fb2` with the biases held as one-row arrays broadcast over the 64 rows. The
  reference computes the same expression with host operations: two `dot_general`s, the biases broadcast from
  vectors, relu as a maximum with the zero constant. At an output entry `(r, c)` both are
  `(∑ k < 1024, max((∑ k' < 2560, comb (r, k') * fw1 (k', k)) + fb1 k, 0) * fw2 (k, c)) + fb2 c`
  over the extended reals, term by term the same: no law beyond reading each operation at an index is used.

  Stated for any contents `V` of the TensorCore's buffers at the region's entry that hold, in the five arrays the
  call reads, the reference's stage of the concatenated features, the two weight arrays, and the two biases as rows.
-/
import proofs.«130635_j19112604467789_1_alg».proof.Proof.Gen.KernelIdeal.Frame
import proofs.«130635_j19112604467789_1_alg».proof.Proof.KDots
import proofs.«130635_j19112604467789_1_alg».proof.Proof.RefRead
import Idealize.ShloMosaic.Lib.Pipeline.Value
import Idealize.ShloMosaic.Lib.ValueLayout

set_option maxRecDepth 16384

noncomputable section

namespace Cert.KernelIdeal.Region2

open Cert.KernelIdeal Cert.KernelIdeal.Gen Cert.KernelIdeal.Dots Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- One row broadcast over `a` rows, read at an entry: the row at the entry's column. -/
theorem bcastRow {α : Type} {a b : ℕ} (v : (⟨2, ![1, b]⟩ : Shape).Idx → α) (h : (⟨2, ![1, b]⟩ : Shape).Broadcasts ⟨2, ![a, b]⟩)
    (idx : (⟨2, ![a, b]⟩ : Shape).Idx) : broadcastTo ⟨2, ![a, b]⟩ v h idx = v (ValueIdx.ix2 (0 : Fin 1) (idx 1)) := by
  obtain ⟨p, q, rfl⟩ : ∃ (p : Fin a) (q : Fin b), idx = ValueIdx.ix2 p q := ⟨idx 0, idx 1, ValueIdx.eq_ix2 idx⟩
  exact ValueIdx.broadcastTo_1b_ab_apply v h p q

/-- A vector seen as a one-row array, read at an entry: the vector at the entry's column. -/
theorem rowOf {α : Type} {b : ℕ} (x : (⟨1, ![b]⟩ : Shape).Idx → α) (h : (⟨1, ![b]⟩ : Shape).ShapeCasts ⟨2, ![1, b]⟩)
    (idx : (⟨2, ![1, b]⟩ : Shape).Idx) : shapeCast ⟨2, ![1, b]⟩ x h idx = x (ValueIdx.ix1 (idx 1)) := by
  obtain ⟨u, q, rfl⟩ : ∃ (u : Fin 1) (q : Fin b), idx = ValueIdx.ix2 u q := ⟨idx 0, idx 1, ValueIdx.eq_ix2 idx⟩
  exact ValueIdx.shapeCast_a_1a_apply x h u q

/-- The body's one store is its payload of the five loaded blocks. -/
theorem out_eq (b0 : Vec Ideal S64x2560 .f32) (b1 : Vec Ideal S2560x1024 .f32) (b2 : Vec Ideal S1x1024 .f32) (b3 : Vec Ideal S1024x80 .f32) (b4 : Vec Ideal S1x80 .f32) :
    out2_5 (F := Ideal) b0 b1 b2 b3 b4 = k2_pay1 b0 b1 b2 b3 b4 := by
  unfold out2_5
  rw [View.canon_unit_zero hz]
  simp only [View.ld_unit_zero (S := S64x2560) hz, View.ld_unit_zero (S := S2560x1024) hz, View.ld_unit_zero (S := S1x1024) hz,
    View.ld_unit_zero (S := S1024x80) hz, View.ld_unit_zero (S := S1x80) hz]

/-- Entry `j` of what the body stores is entry `i` of the reference's result, when `i` and `j` are the same
    pair of coordinates and the five blocks are, entry by entry, the concatenated features, the first weights, the
    first bias (as the one row), the second weights and the second bias (as the one row). -/
theorem mlp_point (x0 : (⟨Cert.ReferenceIdeal.S64x1536, .f32⟩ : BufTy).Contents (Elt Ideal)) (x1 : (⟨Cert.ReferenceIdeal.S50000x1536, .f32⟩ : BufTy).Contents (Elt Ideal)) (x2 : (⟨Cert.ReferenceIdeal.S2x200000, .i32⟩ : BufTy).Contents (Elt Ideal)) (x3 : (⟨Cert.ReferenceIdeal.S50000, .i32⟩ : BufTy).Contents (Elt Ideal)) (x4 : (⟨Cert.ReferenceIdeal.S1536x1024, .f32⟩ : BufTy).Contents (Elt Ideal)) (x5 : (⟨Cert.ReferenceIdeal.S1024, .f32⟩ : BufTy).Contents (Elt Ideal))
    (x6 : (⟨Cert.ReferenceIdeal.S1024x1024, .f32⟩ : BufTy).Contents (Elt Ideal)) (x7 : (⟨Cert.ReferenceIdeal.S1024, .f32⟩ : BufTy).Contents (Elt Ideal)) (x8 : (⟨Cert.ReferenceIdeal.S2560x1024, .f32⟩ : BufTy).Contents (Elt Ideal)) (x9 : (⟨Cert.ReferenceIdeal.S1024, .f32⟩ : BufTy).Contents (Elt Ideal)) (x10 : (⟨Cert.ReferenceIdeal.S1024x80, .f32⟩ : BufTy).Contents (Elt Ideal)) (x11 : (⟨Cert.ReferenceIdeal.S80, .f32⟩ : BufTy).Contents (Elt Ideal))
    (b0 : Vec Ideal S64x2560 .f32) (b1 : Vec Ideal S2560x1024 .f32) (b2 : Vec Ideal S1x1024 .f32) (b3 : Vec Ideal S1024x80 .f32) (b4 : Vec Ideal S1x80 .f32)
    (j : S64x80.Idx) (i : Cert.ReferenceIdeal.S64x80.Idx) (hi0 : (i 0).val = (j 0).val) (hi1 : (i 1).val = (j 1).val)
    (hb0 : ∀ (y : S64x2560.Idx) (z : Cert.ReferenceIdeal.S64x2560.Idx), (z 0).val = (y 0).val → (z 1).val = (y 1).val → b0 y = Cert.ReferenceIdeal.ReadP.val_main_v80 (F := Ideal) x0 x1 x2 x3 x4 x5 x6 x7 z)
    (hb1 : ∀ (y : S2560x1024.Idx) (z : Cert.ReferenceIdeal.S2560x1024.Idx), (z 0).val = (y 0).val → (z 1).val = (y 1).val → b1 y = x8 z)
    (hb2 : ∀ (y : S1x1024.Idx) (z : Cert.ReferenceIdeal.S1024.Idx), (z 0).val = (y 1).val → b2 y = x9 z)
    (hb3 : ∀ (y : S1024x80.Idx) (z : Cert.ReferenceIdeal.S1024x80.Idx), (z 0).val = (y 0).val → (z 1).val = (y 1).val → b3 y = x10 z)
    (hb4 : ∀ (y : S1x80.Idx) (z : Cert.ReferenceIdeal.S80.Idx), (z 0).val = (y 1).val → b4 y = x11 z) :
    out2_5 (F := Ideal) b0 b1 b2 b3 b4 j = Cert.ReferenceIdeal.ReadP.val_main_v89 (F := Ideal) x0 x1 x2 x3 x4 x5 x6 x7 x8 x9 x10 x11 i := by
  rw [out_eq]
  unfold k2_pay1
  simp only [shapeCast_self]
  rw [Cert.ReferenceIdeal.ReadP.val_main_v89_apply, Cert.ReferenceIdeal.ReadP.val_main_v86_apply, Cert.ReferenceIdeal.ReadP.val_main_v88_apply, Cert.ReferenceIdeal.ReadP.val_main_v87_apply]
  refine congrArg₂ (FloatOps.addf (F := Ideal) (φ := .f32)) ?_ ?_
  · -- the second product, term by term
    refine (matmulD_apply _ _ j).trans (Finset.sum_congr rfl fun k _ => ?_)
    refine congrArg₂ (· * ·) ?_ ?_
    · rw [Cert.ReferenceIdeal.ReadP.val_main_v85_apply, Cert.ReferenceIdeal.ReadP.val_main_v84_apply, Cert.ReferenceIdeal.ReadP.val_main_v83_apply, Cert.ReferenceIdeal.ReadP.val_main_v82_apply,
        Cert.ReferenceIdeal.ReadP.val_main_call3_v0_apply, Cert.ReferenceIdeal.ReadP.val_main_call3_cst_apply]
      refine congrArg₂ (FloatOps.maximumf (F := Ideal) (φ := .f32)) (congrArg₂ (FloatOps.addf (F := Ideal) (φ := .f32)) ?_ ?_) rfl
      · -- the first product, term by term
        rw [Cert.ReferenceIdeal.ReadP.val_main_v81_apply]
        refine (matmulC_apply _ _ (lixD j k)).trans (Finset.sum_congr rfl fun k' _ => ?_)
        refine congrArg₂ (· * ·) ?_ ?_
        · exact hb0 (lixC (lixD j k) k') (Cert.ReferenceIdeal.ReadP.lidx_main_v81 (Cert.ReferenceIdeal.ReadP.lidx_main_v86 i k) k') hi0 rfl
        · exact hb1 (rixC (lixD j k) k') (Cert.ReferenceIdeal.ReadP.ridx_main_v81 (Cert.ReferenceIdeal.ReadP.lidx_main_v86 i k) k') rfl rfl
      · -- the first bias at column k
        exact (bcastRow b2 broadcasts_S1x1024_S64x1024 (lixD j k)).trans
          (hb2 (ValueIdx.ix2 (0 : Fin 1) ((lixD j k) 1)) (Cert.ReferenceIdeal.ReadP.idx_main_v82 (Cert.ReferenceIdeal.ReadP.idx_main_v83 (Cert.ReferenceIdeal.ReadP.lidx_main_v86 i k))) rfl)
    · exact hb3 (rixD j k) (Cert.ReferenceIdeal.ReadP.ridx_main_v86 i k) rfl hi1
  · -- the second bias at the entry's column
    exact (bcastRow b4 broadcasts_S1x80_S64x80 j).trans
      (hb4 (ValueIdx.ix2 (0 : Fin 1) (j 1)) (Cert.ReferenceIdeal.ReadP.idx_main_v87 (Cert.ReferenceIdeal.ReadP.idx_main_v88 i)) hi1)

/-- No window moves: at the one grid point every block index is zero. -/
theorem idx_facts : ∀ t : Fin cfg2.N, (win2_0.index t (0 : Fin 2) = 0 ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, _)

section
variable (x0 : (⟨Cert.ReferenceIdeal.S64x1536, .f32⟩ : BufTy).Contents (Elt Ideal)) (x1 : (⟨Cert.ReferenceIdeal.S50000x1536, .f32⟩ : BufTy).Contents (Elt Ideal)) (x2 : (⟨Cert.ReferenceIdeal.S2x200000, .i32⟩ : BufTy).Contents (Elt Ideal)) (x3 : (⟨Cert.ReferenceIdeal.S50000, .i32⟩ : BufTy).Contents (Elt Ideal)) (x4 : (⟨Cert.ReferenceIdeal.S1536x1024, .f32⟩ : BufTy).Contents (Elt Ideal)) (x5 : (⟨Cert.ReferenceIdeal.S1024, .f32⟩ : BufTy).Contents (Elt Ideal))
    (x6 : (⟨Cert.ReferenceIdeal.S1024x1024, .f32⟩ : BufTy).Contents (Elt Ideal)) (x7 : (⟨Cert.ReferenceIdeal.S1024, .f32⟩ : BufTy).Contents (Elt Ideal)) (x8 : (⟨Cert.ReferenceIdeal.S2560x1024, .f32⟩ : BufTy).Contents (Elt Ideal)) (x9 : (⟨Cert.ReferenceIdeal.S1024, .f32⟩ : BufTy).Contents (Elt Ideal)) (x10 : (⟨Cert.ReferenceIdeal.S1024x80, .f32⟩ : BufTy).Contents (Elt Ideal)) (x11 : (⟨Cert.ReferenceIdeal.S80, .f32⟩ : BufTy).Contents (Elt Ideal))
variable (c : Dev nD)
    (h80 : V c main_v80 = Cert.ReferenceIdeal.ReadP.val_main_v80 (F := Ideal) x0 x1 x2 x3 x4 x5 x6 x7) (h8 : V c main_arg8 = x8)
    (h81 : V c main_v81 = shapeCast S1x1024 x9 shapeCasts_S1024_S1x1024) (h10 : V c main_arg10 = x10)
    (h82 : V c main_v82 = shapeCast S1x80 x11 shapeCasts_S80_S1x80)

include h80 h8 h81 h10 h82 in
/-- What the one point writes back is the block (the whole array) of the reference's result. -/
theorem flushed_eq (t : Fin cfg2.N) :
    (dat2 V c).flushed 5 t = ((cfg2.win 5).blk t).view.read (Elt Ideal) (Cert.ReferenceIdeal.ReadP.val_main_v89 (F := Ideal) x0 x1 x2 x3 x4 x5 x6 x7 x8 x9 x10 x11) := by
  show (cfg2.win 5).cut (grid2.coords t) ((dat2 V c).after 5 t) = _
  rw [after2_5]
  obtain ⟨⟨e00, e01⟩, ⟨e10, e11⟩, ⟨e20, e21⟩, ⟨e30, e31⟩, ⟨e40, e41⟩, ⟨e50, e51⟩⟩ := idx_facts t
  funext j
  show out2_5 (F := Ideal) (iblk2 V c 0 t) (iblk2 V c 1 t) (iblk2 V c 2 t) (iblk2 V c 3 t) (iblk2 V c 4 t) j = Cert.ReferenceIdeal.ReadP.val_main_v89 (F := Ideal) x0 x1 x2 x3 x4 x5 x6 x7 x8 x9 x10 x11 (((cfg2.win 5).blk t).view.emb j)
  refine mlp_point x0 x1 x2 x3 x4 x5 x6 x7 x8 x9 x10 x11 (iblk2 V c 0 t) (iblk2 V c 1 t) (iblk2 V c 2 t) (iblk2 V c 3 t) (iblk2 V c 4 t) j (((cfg2.win 5).blk t).view.emb j) ?_ ?_ ?_ ?_ ?_ ?_ ?_
  · show win2_5.index t (0 : Fin 2) * 64 + 1 * (j 0).val = (j 0).val
    rw [e50]; omega
  · show win2_5.index t (1 : Fin 2) * 80 + 1 * (j 1).val = (j 1).val
    rw [e51]; omega
  · intro y z h0 h1
    show V c main_v80 (((cfg2.win 0).blk t).view.emb y) = _
    rw [h80]
    congr 1; funext a; apply Fin.ext
    match a with
    | ⟨0, _⟩ => show win2_0.index t (0 : Fin 2) * 64 + 1 * (y 0).val = (z 0).val; rw [e00, h0]; omega
    | ⟨1, _⟩ => show win2_0.index t (1 : Fin 2) * 2560 + 1 * (y 1).val = (z 1).val; rw [e01, h1]; omega
  · intro y z h0 h1
    show V c main_arg8 (((cfg2.win 1).blk t).view.emb y) = _
    rw [h8]
    congr 1; funext a; apply Fin.ext
    match a with
    | ⟨0, _⟩ => show win2_1.index t (0 : Fin 2) * 2560 + 1 * (y 0).val = (z 0).val; rw [e10, h0]; omega
    | ⟨1, _⟩ => show win2_1.index t (1 : Fin 2) * 1024 + 1 * (y 1).val = (z 1).val; rw [e11, h1]; omega
  · intro y z h1
    show V c main_v81 (((cfg2.win 2).blk t).view.emb y) = _
    rw [h81]
    refine (rowOf x9 shapeCasts_S1024_S1x1024 _).trans ?_
    congr 1; funext a; apply Fin.ext
    match a with
    | ⟨0, _⟩ => show win2_2.index t (1 : Fin 2) * 1024 + 1 * (y 1).val = (z 0).val; rw [e21, h1]; omega
  · intro y z h0 h1
    show V c main_arg10 (((cfg2.win 3).blk t).view.emb y) = _
    rw [h10]
    congr 1; funext a; apply Fin.ext
    match a with
    | ⟨0, _⟩ => show win2_3.index t (0 : Fin 2) * 1024 + 1 * (y 0).val = (z 0).val; rw [e30, h0]; omega
    | ⟨1, _⟩ => show win2_3.index t (1 : Fin 2) * 80 + 1 * (y 1).val = (z 1).val; rw [e31, h1]; omega
  · intro y z h1
    show V c main_v82 (((cfg2.win 4).blk t).view.emb y) = _
    rw [h82]
    refine (rowOf x11 shapeCasts_S80_S1x80 _).trans ?_
    congr 1; funext a; apply Fin.ext
    match a with
    | ⟨0, _⟩ => show win2_4.index t (1 : Fin 2) * 80 + 1 * (y 1).val = (z 0).val; rw [e41, h1]; omega

/-- An index of the result array is in the point's block iff each coordinate is in the block's range on its axis. -/
theorem mem_blk (t : Fin cfg2.N) (i : S64x80.Idx) :
    i ∈ ((cfg2.win 5).blk t).view.set ↔ ∀ a : Fin 2, win2_5.index t a * S64x80.size a ≤ (i a).val ∧ (i a).val < win2_5.index t a * S64x80.size a + S64x80.size a := by
  show i ∈ ((View.whole main_v83).slice (win2_5.rect t)).set ↔ _
  rw [View.set_slice_whole, Rect.mem_set_unit]
  exact Iff.rfl

/-- The one point's block is the whole result array. -/
theorem cover (i : S64x80.Idx) : ∃ t : Fin cfg2.N, (cfg2.win 5).flush t = true ∧ i ∈ ((cfg2.win 5).blk t).view.set := by
  have hi0 : (i 0).val < 64 := (i 0).isLt
  have hi1 : (i 1).val < 80 := (i 1).isLt
  obtain ⟨-, -, -, -, -, e50, e51⟩ := idx_facts t2_0
  refine ⟨t2_0, flush2_5 t2_0, ?_⟩
  rw [mem_blk]
  intro a
  match a with
  | ⟨0, _⟩ => show win2_5.index t2_0 (0 : Fin 2) * 64 ≤ (i 0).val ∧ (i 0).val < win2_5.index t2_0 (0 : Fin 2) * 64 + 64; rw [e50]; omega
  | ⟨1, _⟩ => show win2_5.index t2_0 (1 : Fin 2) * 80 ≤ (i 1).val ∧ (i 1).val < win2_5.index t2_0 (1 : Fin 2) * 80 + 80; rw [e51]; omega

include h80 h8 h81 h10 h82 in
/-- After the run the result array is the reference's result of the twelve arguments. -/
theorem value : (dat2 V c).arrAt 5 cfg2.N = Cert.ReferenceIdeal.ReadP.val_main_v89 (F := Ideal) x0 x1 x2 x3 x4 x5 x6 x7 x8 x9 x10 x11 :=
  (dat2 V c).arrAt_eq_of_cover 5 _ (fun t _ => flushed_eq V x0 x1 x2 x3 x4 x5 x6 x7 x8 x9 x10 x11 c h80 h8 h81 h10 h82 t) cover

end

end Cert.KernelIdeal.Region2

end
-- ==== Proof.Stretch.lean ====
/-
  The three stretches of host operations of the kernel's program, read one buffer at a time.

  Between its pallas_calls the kernel's program runs the same host operations as the reference: the self-loop
  edge lists and the symmetric normalisation before the first projection; gather, scale, scatter-add, bias and
  relu after each projection; the mean-pool, the concatenation with the global features and two reshapes of the
  biases before the last call. A stretch is a fold of its operations over the buffer contents it starts from, `W`.
  For each stretch this file says, for any float family and any `W`:
    * what each buffer that a later item reads holds after the stretch, as the reference's own stage
      (`val_main_vN`) of the values the stretch found — provided the buffers the stretch reads held the matching
      stages (the hypotheses);
    * that the buffers a later item reads and the stretch does not write are as they were.
  The two programs' operations are the same operations over the same shapes, so once every buffer read is
  replaced by its stage each equation holds by unfolding the stages.
-/
import proofs.«130635_j19112604467789_1_alg».proof.Proof.Gen.KernelIdeal.Launch
import proofs.«130635_j19112604467789_1_alg».proof.Proof.RefRead
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.ShloMosaic.StableHlo

variable {F : FTy → Type} [FloatOps F]
variable (W : Valuation τ sig (Elt F))

/-- Read a buffer through a stretch: each operation's result at its own buffer is its function of its operands'
    contents, and at any other buffer what was there. -/
local macro "host_read" : tactic =>
  `(tactic| (after_results_simp; all_goals (first | rfl | (simp only [TRef.ofBuf, TRef.toBuf, cast_eq]; rfl))))

/-! ## Before the first projection -/

/-- The contents after the first stretch (the edge lists with self-loops, the degrees, the normalisation). -/
abbrev afterA : Valuation τ sig (Elt F) := after hostOps0_2 (after hostOps0_1 (after hostOps0 W))

/-- The source list with self-loops. -/
theorem A_v3 : afterA W (Proc.devRef .tc main_v3) = Cert.ReferenceIdeal.ReadP.val_main_v3 (F := F) (W (Proc.devRef .tc main_arg2)) := by
  simp only [afterA, hostOps0, hostOps0_1, hostOps0_2]; host_read
/-- The destination list with self-loops. -/
theorem A_v6 : afterA W (Proc.devRef .tc main_v6) = Cert.ReferenceIdeal.ReadP.val_main_v6 (F := F) (W (Proc.devRef .tc main_arg2)) := by
  simp only [afterA, hostOps0, hostOps0_1, hostOps0_2]; host_read
/-- The per-edge normalisation `dis[src] * dis[dst]`. -/
theorem A_v31 : afterA W (Proc.devRef .tc main_v31) = Cert.ReferenceIdeal.ReadP.val_main_v31 (F := F) (W (Proc.devRef .tc main_arg2)) := by
  simp only [afterA, hostOps0, hostOps0_1, hostOps0_2]; host_read
/-- The stretch writes no argument array: every argument a later item reads is as it was. -/
theorem A_keep (b : Ref sig .tc)
    (hb : b = main_arg0 ∨ b = main_arg1 ∨ b = main_arg3 ∨ b = main_arg4 ∨ b = main_arg5 ∨ b = main_arg6 ∨ b = main_arg7
      ∨ b = main_arg8 ∨ b = main_arg9 ∨ b = main_arg10 ∨ b = main_arg11) :
    afterA W (Proc.devRef .tc b) = W (Proc.devRef .tc b) := by
  rcases hb with rfl | rfl | rfl | rfl | rfl | rfl | rfl | rfl | rfl | rfl | rfl <;>
    (simp only [afterA, hostOps0, hostOps0_1, hostOps0_2]; host_read)

/-! ## Between the two projections -/

/-- The contents after the second stretch (gather, scale, scatter-add, bias, relu). -/
abbrev afterB : Valuation τ sig (Elt F) := after hostOps1_1 (after hostOps1 W)

/-- The first convolution's output after relu, from the first projection's result and the edge data. -/
theorem B_v49 (x1 : (⟨Cert.ReferenceIdeal.S50000x1536, .f32⟩ : BufTy).Contents (Elt F)) (x2 : (⟨Cert.ReferenceIdeal.S2x200000, .i32⟩ : BufTy).Contents (Elt F)) (x4 : (⟨Cert.ReferenceIdeal.S1536x1024, .f32⟩ : BufTy).Contents (Elt F)) (x5 : (⟨Cert.ReferenceIdeal.S1024, .f32⟩ : BufTy).Contents (Elt F))
    (h32 : W (Proc.devRef .tc main_v32) = Cert.ReferenceIdeal.ReadP.val_main_v32 (F := F) x1 x4) (h3 : W (Proc.devRef .tc main_v3) = Cert.ReferenceIdeal.ReadP.val_main_v3 (F := F) x2)
    (h6 : W (Proc.devRef .tc main_v6) = Cert.ReferenceIdeal.ReadP.val_main_v6 (F := F) x2) (h31 : W (Proc.devRef .tc main_v31) = Cert.ReferenceIdeal.ReadP.val_main_v31 (F := F) x2)
    (h5 : W (Proc.devRef .tc main_arg5) = x5) :
    afterB W (Proc.devRef .tc main_v49) = Cert.ReferenceIdeal.ReadP.val_main_v49 (F := F) x1 x2 x4 x5 := by
  simp only [afterB, hostOps1, hostOps1_1]
  after_results_simp
  rw [h32, h3, h6, h31, h5]
  first | rfl | (simp only [TRef.ofBuf, TRef.toBuf, cast_eq]; rfl)
/-- The stretch writes neither the edge data nor an argument array. -/
theorem B_keep (b : Ref sig .tc)
    (hb : b = main_v3 ∨ b = main_v6 ∨ b = main_v31 ∨ b = main_arg0 ∨ b = main_arg3 ∨ b = main_arg6 ∨ b = main_arg7
      ∨ b = main_arg8 ∨ b = main_arg9 ∨ b = main_arg10 ∨ b = main_arg11) :
    afterB W (Proc.devRef .tc b) = W (Proc.devRef .tc b) := by
  rcases hb with rfl | rfl | rfl | rfl | rfl | rfl | rfl | rfl | rfl | rfl | rfl <;>
    (simp only [afterB, hostOps1, hostOps1_1]; host_read)

/-! ## Before the last call -/

/-- The contents after the third stretch (the second convolution's tail, the mean-pool, the concatenation, the
    biases as rows). -/
abbrev afterC : Valuation τ sig (Elt F) := after hostOps2_2 (after hostOps2_1 (after hostOps2 W))

/-- The global features beside the pooled node features. -/
theorem C_v80 (x0 : (⟨Cert.ReferenceIdeal.S64x1536, .f32⟩ : BufTy).Contents (Elt F)) (x1 : (⟨Cert.ReferenceIdeal.S50000x1536, .f32⟩ : BufTy).Contents (Elt F)) (x2 : (⟨Cert.ReferenceIdeal.S2x200000, .i32⟩ : BufTy).Contents (Elt F)) (x3 : (⟨Cert.ReferenceIdeal.S50000, .i32⟩ : BufTy).Contents (Elt F)) (x4 : (⟨Cert.ReferenceIdeal.S1536x1024, .f32⟩ : BufTy).Contents (Elt F)) (x5 : (⟨Cert.ReferenceIdeal.S1024, .f32⟩ : BufTy).Contents (Elt F)) (x6 : (⟨Cert.ReferenceIdeal.S1024x1024, .f32⟩ : BufTy).Contents (Elt F)) (x7 : (⟨Cert.ReferenceIdeal.S1024, .f32⟩ : BufTy).Contents (Elt F))
    (h50 : W (Proc.devRef .tc main_v50) = Cert.ReferenceIdeal.ReadP.val_main_v50 (F := F) x1 x2 x4 x5 x6) (h3 : W (Proc.devRef .tc main_v3) = Cert.ReferenceIdeal.ReadP.val_main_v3 (F := F) x2)
    (h6 : W (Proc.devRef .tc main_v6) = Cert.ReferenceIdeal.ReadP.val_main_v6 (F := F) x2) (h31 : W (Proc.devRef .tc main_v31) = Cert.ReferenceIdeal.ReadP.val_main_v31 (F := F) x2)
    (h7 : W (Proc.devRef .tc main_arg7) = x7) (hb : W (Proc.devRef .tc main_arg3) = x3) (h0 : W (Proc.devRef .tc main_arg0) = x0) :
    afterC W (Proc.devRef .tc main_v80) = Cert.ReferenceIdeal.ReadP.val_main_v80 (F := F) x0 x1 x2 x3 x4 x5 x6 x7 := by
  -- once both operands of the concatenation are known, the two sides are one term
  have key : ∀ X : Valuation τ sig (Elt F), X (Proc.devRef .tc main_arg0) = x0 →
      X (Proc.devRef .tc main_v79) = Cert.ReferenceIdeal.ReadP.val_main_v79 (F := F) x1 x2 x3 x4 x5 x6 x7 →
      concatenate S64x2560 1 [⟨S64x1536, X (Proc.devRef .tc main_arg0)⟩, ⟨S64x1024, X (Proc.devRef .tc main_v79)⟩] concatenates_S64x1536_S64x1024_S64x2560_d1
        = Cert.ReferenceIdeal.ReadP.val_main_v80 (F := F) x0 x1 x2 x3 x4 x5 x6 x7 := by
    intro X e0 e79
    rw [e0, e79]
    rfl
  simp only [afterC, hostOps2, hostOps2_1, hostOps2_2, after_cons, after_nil]
  -- the two reshapes after the concatenation write other buffers; the concatenation reads the contents before it
  rw [reshape_result_ne]; rotate_left; decide
  rw [reshape_result_ne]; rotate_left; decide
  rw [binary_result]
  refine key _ ?_ ?_
  · after_results_simp
    exact h0
  · after_results_simp
    rw [h50, h3, h6, h31, h7, hb]
    first | rfl | (simp only [TRef.ofBuf, TRef.toBuf, cast_eq]; rfl)
/-- The first bias as a row. -/
theorem C_v81 : afterC W (Proc.devRef .tc main_v81) = shapeCast S1x1024 (W (Proc.devRef .tc main_arg9)) shapeCasts_S1024_S1x1024 := by
  simp only [afterC, hostOps2, hostOps2_1, hostOps2_2]; host_read
/-- The second bias as a row. -/
theorem C_v82 : afterC W (Proc.devRef .tc main_v82) = shapeCast S1x80 (W (Proc.devRef .tc main_arg11)) shapeCasts_S80_S1x80 := by
  simp only [afterC, hostOps2, hostOps2_1, hostOps2_2]; host_read
/-- The stretch writes neither of the two weight arrays the last call reads. -/
theorem C_keep (b : Ref sig .tc) (hb : b = main_arg8 ∨ b = main_arg10) :
    afterC W (Proc.devRef .tc b) = W (Proc.devRef .tc b) := by
  rcases hb with rfl | rfl <;> (simp only [afterC, hostOps2, hostOps2_1, hostOps2_2]; host_read)

end Cert.KernelIdeal.Stretch

end
-- ==== Proof.Fold.lean ====
/-
  The kernel's program from launch to return: every buffer a later item reads, as the reference's stage of the launch
  arguments, and so the result.

  The buffer contents at the boundaries between the program's items are a fold from the launch memory: a host
  stretch applies its operations, a pallas_call replaces its result array by what its write-backs leave and keeps
  every other buffer. Walking that fold:
    * before the first projection the edge lists with self-loops and the normalisation are the reference's stages of
      the edge input, and no argument array has been written;
    * the first projection's result array is the product `x · W1` (the row blocks tile it), the reference's stage 32;
    * the stretch after it turns that into the first convolution's output after relu, stage 49;
    * the second projection's result array is the product of that with `W2`, stage 50;
    * the stretch after it gives the pooled features beside the global ones, stage 80, and the two biases as rows;
    * the last call's result array is the two-layer perceptron of those, the reference's result, stage 89.
  Each step only reads what the previous one established, so the equations compose by transitivity.
-/
import proofs.«130635_j19112604467789_1_alg».proof.Proof.Gen.KernelIdeal.Frame
import proofs.«130635_j19112604467789_1_alg».proof.Proof.KernelRun
import proofs.«130635_j19112604467789_1_alg».proof.Proof.Region0
import proofs.«130635_j19112604467789_1_alg».proof.Proof.Region1
import proofs.«130635_j19112604467789_1_alg».proof.Proof.Region2
import proofs.«130635_j19112604467789_1_alg».proof.Proof.Stretch

set_option maxRecDepth 16384

noncomputable section

namespace Cert.KernelIdeal.Fold

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## The launch arguments -/

abbrev a0 : (⟨Cert.ReferenceIdeal.S64x1536, .f32⟩ : BufTy).Contents (Elt Ideal) := m ((c : Thread nD τ).loc main_arg0)
abbrev a1 : (⟨Cert.ReferenceIdeal.S50000x1536, .f32⟩ : BufTy).Contents (Elt Ideal) := m ((c : Thread nD τ).loc main_arg1)
abbrev a2 : (⟨Cert.ReferenceIdeal.S2x200000, .i32⟩ : BufTy).Contents (Elt Ideal) := m ((c : Thread nD τ).loc main_arg2)
abbrev a3 : (⟨Cert.ReferenceIdeal.S50000, .i32⟩ : BufTy).Contents (Elt Ideal) := m ((c : Thread nD τ).loc main_arg3)
abbrev a4 : (⟨Cert.ReferenceIdeal.S1536x1024, .f32⟩ : BufTy).Contents (Elt Ideal) := m ((c : Thread nD τ).loc main_arg4)
abbrev a5 : (⟨Cert.ReferenceIdeal.S1024, .f32⟩ : BufTy).Contents (Elt Ideal) := m ((c : Thread nD τ).loc main_arg5)
abbrev a6 : (⟨Cert.ReferenceIdeal.S1024x1024, .f32⟩ : BufTy).Contents (Elt Ideal) := m ((c : Thread nD τ).loc main_arg6)
abbrev a7 : (⟨Cert.ReferenceIdeal.S1024, .f32⟩ : BufTy).Contents (Elt Ideal) := m ((c : Thread nD τ).loc main_arg7)
abbrev a8 : (⟨Cert.ReferenceIdeal.S2560x1024, .f32⟩ : BufTy).Contents (Elt Ideal) := m ((c : Thread nD τ).loc main_arg8)
abbrev a9 : (⟨Cert.ReferenceIdeal.S1024, .f32⟩ : BufTy).Contents (Elt Ideal) := m ((c : Thread nD τ).loc main_arg9)
abbrev a10 : (⟨Cert.ReferenceIdeal.S1024x80, .f32⟩ : BufTy).Contents (Elt Ideal) := m ((c : Thread nD τ).loc main_arg10)
abbrev a11 : (⟨Cert.ReferenceIdeal.S80, .f32⟩ : BufTy).Contents (Elt Ideal) := m ((c : Thread nD τ).loc main_arg11)

/-- The reference's result of the launch arguments: what both programs end holding. -/
abbrev spec : (⟨Cert.ReferenceIdeal.S64x80, .f32⟩ : BufTy).Contents (Elt Ideal) :=
  Cert.ReferenceIdeal.ReadP.val_main_v89 (F := Ideal) (a0 m c) (a1 m c) (a2 m c) (a3 m c) (a4 m c) (a5 m c) (a6 m c) (a7 m c) (a8 m c) (a9 m c) (a10 m c) (a11 m c)

/-! ## At the first projection's entry -/

theorem at3_v3 : W3 m ρ c (Proc.devRef .tc main_v3) = Cert.ReferenceIdeal.ReadP.val_main_v3 (F := Ideal) (a2 m c) := Stretch.A_v3 (W0 m ρ c)
theorem at3_v6 : W3 m ρ c (Proc.devRef .tc main_v6) = Cert.ReferenceIdeal.ReadP.val_main_v6 (F := Ideal) (a2 m c) := Stretch.A_v6 (W0 m ρ c)
theorem at3_v31 : W3 m ρ c (Proc.devRef .tc main_v31) = Cert.ReferenceIdeal.ReadP.val_main_v31 (F := Ideal) (a2 m c) := Stretch.A_v31 (W0 m ρ c)
/-- An argument array the first stretch does not write is as launched. -/
theorem at3_arg (b : Ref sig .tc)
    (hb : b = main_arg0 ∨ b = main_arg1 ∨ b = main_arg3 ∨ b = main_arg4 ∨ b = main_arg5 ∨ b = main_arg6 ∨ b = main_arg7
      ∨ b = main_arg8 ∨ b = main_arg9 ∨ b = main_arg10 ∨ b = main_arg11) :
    W3 m ρ c (Proc.devRef .tc b) = W0 m ρ c (Proc.devRef .tc b) := Stretch.A_keep (W0 m ρ c) b hb

/-! ## After the first projection -/

/-- The first projection's result array: the whole product `x · W1`. -/
theorem at4_v32 : W4 m ρ c (Proc.devRef .tc main_v32) = Cert.ReferenceIdeal.ReadP.val_main_v32 (F := Ideal) (a1 m c) (a4 m c) :=
  (W4_arr m ρ c 2).trans ((Region0.value (V3 m ρ) c).trans
    (congrArg₂ (Cert.ReferenceIdeal.ReadP.val_main_v32 (F := Ideal)) (at3_arg m ρ c main_arg1 (by decide)) (at3_arg m ρ c main_arg4 (by decide))))

/-- A buffer neither projection touches and the middle stretch does not write, from the second projection's exit back
    to the first one's entry. -/
theorem carry (b : Ref sig .tc) (h0 : ∀ w, Pipeline.arrRef spec0 w ≠ b)
    (hB : b = main_v3 ∨ b = main_v6 ∨ b = main_v31 ∨ b = main_arg0 ∨ b = main_arg3 ∨ b = main_arg6 ∨ b = main_arg7
      ∨ b = main_arg8 ∨ b = main_arg9 ∨ b = main_arg10 ∨ b = main_arg11)
    (h1 : ∀ w, Pipeline.arrRef spec1 w ≠ b) :
    W7 m ρ c (Proc.devRef .tc b) = W3 m ρ c (Proc.devRef .tc b) :=
  (W7_of_ne m ρ c b h1).trans ((Stretch.B_keep (W4 m ρ c) b hB).trans (W4_of_ne m ρ c b h0))

/-! ## At the second projection's entry -/

/-- The first convolution's output after relu. -/
theorem at6_v49 : W6 m ρ c (Proc.devRef .tc main_v49) = Cert.ReferenceIdeal.ReadP.val_main_v49 (F := Ideal) (a1 m c) (a2 m c) (a4 m c) (a5 m c) :=
  Stretch.B_v49 (W4 m ρ c) (a1 m c) (a2 m c) (a4 m c) (a5 m c) (at4_v32 m ρ c)
    ((W4_of_ne m ρ c main_v3 (by decide)).trans (at3_v3 m ρ c))
    ((W4_of_ne m ρ c main_v6 (by decide)).trans (at3_v6 m ρ c))
    ((W4_of_ne m ρ c main_v31 (by decide)).trans (at3_v31 m ρ c))
    ((W4_of_ne m ρ c main_arg5 (by decide)).trans (at3_arg m ρ c main_arg5 (by decide)))
/-- The second weight array is as launched. -/
theorem at6_arg6 : W6 m ρ c (Proc.devRef .tc main_arg6) = a6 m c :=
  (Stretch.B_keep (W4 m ρ c) main_arg6 (by decide)).trans ((W4_of_ne m ρ c main_arg6 (by decide)).trans (at3_arg m ρ c main_arg6 (by decide)))

/-! ## After the second projection -/

/-- The second projection's result array: the product of the first convolution's output with `W2`. -/
theorem at7_v50 : W7 m ρ c (Proc.devRef .tc main_v50) = Cert.ReferenceIdeal.ReadP.val_main_v50 (F := Ideal) (a1 m c) (a2 m c) (a4 m c) (a5 m c) (a6 m c) :=
  (W7_arr m ρ c 2).trans ((Region1.value (V6 m ρ) c).trans
    (congrArg₂ (Host.dotGeneral (F := Ideal) (φ₁ := .f32) (φ₂ := .f32) Cert.ReferenceIdeal.dot_S50000x1024_S1024x1024_S50000x1024_1_0_0_1_n_n none) (at6_v49 m ρ c) (at6_arg6 m ρ c)))

/-! ## At the last call's entry -/

/-- The global features beside the pooled node features. -/
theorem at10_v80 : W10 m ρ c (Proc.devRef .tc main_v80)
    = Cert.ReferenceIdeal.ReadP.val_main_v80 (F := Ideal) (a0 m c) (a1 m c) (a2 m c) (a3 m c) (a4 m c) (a5 m c) (a6 m c) (a7 m c) :=
  Stretch.C_v80 (W7 m ρ c) (a0 m c) (a1 m c) (a2 m c) (a3 m c) (a4 m c) (a5 m c) (a6 m c) (a7 m c) (at7_v50 m ρ c)
    ((carry m ρ c main_v3 (by decide) (by decide) (by decide)).trans (at3_v3 m ρ c))
    ((carry m ρ c main_v6 (by decide) (by decide) (by decide)).trans (at3_v6 m ρ c))
    ((carry m ρ c main_v31 (by decide) (by decide) (by decide)).trans (at3_v31 m ρ c))
    ((carry m ρ c main_arg7 (by decide) (by decide) (by decide)).trans (at3_arg m ρ c main_arg7 (by decide)))
    ((carry m ρ c main_arg3 (by decide) (by decide) (by decide)).trans (at3_arg m ρ c main_arg3 (by decide)))
    ((carry m ρ c main_arg0 (by decide) (by decide) (by decide)).trans (at3_arg m ρ c main_arg0 (by decide)))
/-- The first bias as a row. -/
theorem at10_v81 : W10 m ρ c (Proc.devRef .tc main_v81) = shapeCast S1x1024 (a9 m c) shapeCasts_S1024_S1x1024 :=
  (Stretch.C_v81 (W7 m ρ c)).trans (congrArg (fun x => shapeCast S1x1024 x shapeCasts_S1024_S1x1024)
    ((carry m ρ c main_arg9 (by decide) (by decide) (by decide)).trans (at3_arg m ρ c main_arg9 (by decide))))
/-- The second bias as a row. -/
theorem at10_v82 : W10 m ρ c (Proc.devRef .tc main_v82) = shapeCast S1x80 (a11 m c) shapeCasts_S80_S1x80 :=
  (Stretch.C_v82 (W7 m ρ c)).trans (congrArg (fun x => shapeCast S1x80 x shapeCasts_S80_S1x80)
    ((carry m ρ c main_arg11 (by decide) (by decide) (by decide)).trans (at3_arg m ρ c main_arg11 (by decide))))
/-- The two weight arrays of the perceptron are as launched. -/
theorem at10_arg8 : W10 m ρ c (Proc.devRef .tc main_arg8) = a8 m c :=
  (Stretch.C_keep (W7 m ρ c) main_arg8 (by decide)).trans
    ((carry m ρ c main_arg8 (by decide) (by decide) (by decide)).trans (at3_arg m ρ c main_arg8 (by decide)))
theorem at10_arg10 : W10 m ρ c (Proc.devRef .tc main_arg10) = a10 m c :=
  (Stretch.C_keep (W7 m ρ c) main_arg10 (by decide)).trans
    ((carry m ρ c main_arg10 (by decide) (by decide) (by decide)).trans (at3_arg m ρ c main_arg10 (by decide)))

/-! ## The result -/

/-- The last call's result array: the reference's result of the launch arguments. -/
theorem result : W11 m ρ c (Proc.devRef .tc main_v83) = spec m c :=
  (W11_arr m ρ c 5).trans (Region2.value (V10 m ρ) (a0 m c) (a1 m c) (a2 m c) (a3 m c) (a4 m c) (a5 m c) (a6 m c) (a7 m c) (a8 m c) (a9 m c) (a10 m c) (a11 m c) c
    (at10_v80 m ρ c) (at10_arg8 m ρ c) (at10_v81 m ρ c) (at10_arg10 m ρ c) (at10_v82 m ρ c))

/-- The kernel's run, read: every weakly fair execution terminates with the result buffer at the reference's result of
    the launch arguments and the arguments unchanged. -/
theorem run : θ_run defs (onTc (τ := τ) (main (F := Ideal))) ⟨m, fun _ => 0, ρ⟩ (fun r => ∀ c : Dev nD,
      r.2.mem ((c.tc : Thread nD τ).loc main_v83) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (result m ρ c), (h c).2⟩) (run_named (F := Ideal) m ρ)

end Cert.KernelIdeal.Fold

end
-- ==== Proof.lean ====
/-
  Two graph-convolution layers, a mean-pool and a two-layer perceptron: the kernel against its jnp reference, over the
  extended reals.

  The kernel's program and the reference are the same host program — self-loop edge lists, the symmetric
  normalisation `D^-1/2 (A + I) D^-1/2`, gather · scale · scatter-add · bias · relu twice, segment mean, concatenation
  with the global features — except in three places. The two dense projections `x · W1` and `h · W2` are pallas_calls
  over 125 blocks of 400 rows each, with operands narrowed to bf16 and an f32 accumulator; the final perceptron is one
  pallas_call on whole arrays. At the ideal values the narrowing is the identity and a matrix product is the finite sum
  over the contraction axis, which the row blocking does not cut; so each projection's result array is the reference's
  `dot_general` of the same operands, and the perceptron's is the reference's `dot, + bias, max 0, dot, + bias`, entry
  by entry. Everything between is carried as the reference's own stages. No algebraic law beyond reading each
  operation at an index is needed, and the precondition (finite inputs) is not used.

  The frames of the two kernel programs are the generated ones; the reference's frame is its run with the result
  dropped; the idealization rewrote nothing, so `preserves` has nothing to state.
-/
import proofs.«130635_j19112604467789_1_alg».proof.Defs
import proofs.«130635_j19112604467789_1_alg».proof.Proof.Gen.Kernel
import proofs.«130635_j19112604467789_1_alg».proof.Proof.Gen.Kernel.Skeleton
import proofs.«130635_j19112604467789_1_alg».proof.Proof.Gen.Kernel.Launch
import proofs.«130635_j19112604467789_1_alg».proof.Proof.Gen.Kernel.Points
import proofs.«130635_j19112604467789_1_alg».proof.Proof.Gen.Kernel.Frame
import proofs.«130635_j19112604467789_1_alg».proof.Proof.Gen.KernelIdeal
import proofs.«130635_j19112604467789_1_alg».proof.Proof.Gen.KernelIdeal.Skeleton
import proofs.«130635_j19112604467789_1_alg».proof.Proof.Gen.KernelIdeal.Launch
import proofs.«130635_j19112604467789_1_alg».proof.Proof.Gen.KernelIdeal.Points
import proofs.«130635_j19112604467789_1_alg».proof.Proof.Gen.KernelIdeal.Frame
import proofs.«130635_j19112604467789_1_alg».proof.Proof.Gen.ReferenceIdeal
import proofs.«130635_j19112604467789_1_alg».proof.Proof.Gen.Pre_finite_inputs
import proofs.«130635_j19112604467789_1_alg».proof.Proof.RefRun
import proofs.«130635_j19112604467789_1_alg».proof.Proof.RefRead
import proofs.«130635_j19112604467789_1_alg».proof.Proof.Fold
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the twelve arguments both programs end with the result buffer at one function of those
    arguments: the kernel by the walk through its fold, the reference by its run read as stages. -/
theorem algebraic : Cert.algebraic_KernelIdeal_ReferenceIdeal := by
  intro m ρ m' ρ' _ hagree
  refine ⟨fun c => Cert.KernelIdeal.Fold.spec m c, Cert.KernelIdeal.Fold.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11⟩ := hagree c
  rw [Cert.ReferenceIdeal.ReadP.val_main_v89_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
